-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x16384x2 : Shape := ⟨3, ![8, 16384, 2]⟩
abbrev S_ : Shape := ⟨0, ![]⟩
abbrev S90 : Shape := ⟨1, ![90]⟩
abbrev S5 : Shape := ⟨1, ![5]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x16384x2 : S_.BroadcastsInDim S8x16384x2 (![] : Fin 0 → Fin S8x16384x2.rank)
  reducesTo_S8x16384x2_S_d0_1_2 : S8x16384x2.ReducesTo [0, 1, 2] S_
  reducesTo_S_S_d : S_.ReducesTo [] S_
  bcast_S_S90 : S_.BroadcastsInDim S90 (![] : Fin 0 → Fin S90.rank)
  reducesTo_S90_S_d0 : S90.ReducesTo [0] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S5 .f32) (main_v12 : IVec S_ 1) (main_v15 : IVec S90 1) (main_c_5 : IVec S_ 1) : IVec S_ 1 :=
  let main_v16 : IVec S_ 1 := (fun x v => Host.reduce IntOp.andi x v reducesTo_S90_S_d0 h_S_) main_v15 main_c_5
  let main_v17 : IVec S_ 1 := andi main_v12 main_v16
  let main_v18 : FVec F S5 .f32 := Host.absf main_arg4
  let main_cst_6 : FVec F S_ .f32 := constant S_ .f32 0x7F800000#32
  let main_v19 : FVec F S5 .f32 := broadcastInDim S5 ![] bcast_S_S5 main_cst_6
  let main_v20 : IVec S5 1 := cmpf .olt main_v18 main_v19
  let main_c_7 : IVec S_ 1 := constantI S_ 1 1#1
  let main_v21 : IVec S_ 1 := (fun x v => Host.reduce IntOp.andi x v reducesTo_S5_S_d0 h_S_) main_v20 main_c_7
  let main_v22 : IVec S_ 1 := andi main_v17 main_v21
  main_v22

def fn {F : FTy → Type} [FloatOps F] (main_arg0 : FVec F S8x16x512x512 .f32) (main_arg1 : FVec F S8x16384x2 .f32) (main_arg2 : FVec F S_ .f32) (main_arg3 : FVec F S90 .f32) (main_arg4 : FVec F S5 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S8x16384x2 .f32 := Host.absf main_arg1
  let main_cst_0 : FVec F S_ .f32 := constant S_ .f32 0x7F800000#32
  let main_v5 : FVec F S8x16384x2 .f32 := broadcastInDim S8x16384x2 ![] bcast_S_S8x16384x2 main_cst_0
  let main_v6 : IVec S8x16384x2 1 := cmpf .olt main_v4 main_v5
  let main_c_1 : IVec S_ 1 := constantI S_ 1 1#1
  let main_v7 : IVec S_ 1 := (fun x v => Host.reduce IntOp.andi x v reducesTo_S8x16384x2_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S90 .f32 := Host.absf main_arg3
  let main_cst_4 : FVec F S_ .f32 := constant S_ .f32 0x7F800000#32
  let main_v14 : FVec F S90 .f32 := broadcastInDim S90 ![] bcast_S_S90 main_cst_4
  let main_v15 : IVec S90 1 := cmpf .olt main_v13 main_v14
  let main_c_5 : IVec S_ 1 := constantI S_ 1 1#1
  fn_part1 (F := F) main_arg4 main_v12 main_v15 main_c_5
-- ==== Kernel.lean ====
abbrev S8x16x512x512 : Shape := ⟨4, ![8, 16, 512, 512]⟩
abbrev S8x16384x2 : Shape := ⟨3, ![8, 16384, 2]⟩
abbrev S_ : Shape := ⟨0, ![]⟩
abbrev S90 : Shape := ⟨1, ![90]⟩
abbrev S5 : Shape := ⟨1, ![5]⟩
abbrev S8x16384x1 : Shape := ⟨3, ![8, 16384, 1]⟩
abbrev S8x16384 : Shape := ⟨2, ![8, 16384]⟩
abbrev S1x1x90 : Shape := ⟨3, ![1, 1, 90]⟩
abbrev S8x16384x90 : Shape := ⟨3, ![8, 16384, 90]⟩
abbrev S8x16384x5x18 : Shape := ⟨4, ![8, 16384, 5, 18]⟩
abbrev S8x16384x5 : Shape := ⟨3, ![8, 16384, 5]⟩
abbrev S1x1x5 : Shape := ⟨3, ![1, 1, 5]⟩
abbrev S8x5x16384 : Shape := ⟨3, ![8, 5, 16384]⟩
abbrev S8x16x16384 : Shape := ⟨3, ![8, 16, 16384]⟩
abbrev S1x16x512x512 : Shape := ⟨4, ![1, 16, 512, 512]⟩
abbrev S1x5x128 : Shape := ⟨3, ![1, 5, 128]⟩
abbrev S1x16x128 : Shape := ⟨3, ![1, 16, 128]⟩
abbrev S512x128 : Shape := ⟨2, ![512, 128]⟩
abbrev S1x1x128 : Shape := ⟨3, ![1, 1, 128]⟩
abbrev S128 : Shape := ⟨1, ![128]⟩
abbrev S1x128 : Shape := ⟨2, ![1, 128]⟩
abbrev S16x512x512 : Shape := ⟨3, ![16, 512, 512]⟩
abbrev S8192x512 : Shape := ⟨2, ![8192, 512]⟩
abbrev S8192x128 : Shape := ⟨2, ![8192, 128]⟩
abbrev S16x512x128 : Shape := ⟨3, ![16, 512, 128]⟩
abbrev S1x512x128 : Shape := ⟨3, ![1, 512, 128]⟩
abbrev S16x128 : Shape := ⟨2, ![16, 128]⟩

abbrev nBuf : Space → Nat
  | .hbm => 126
  | .vmem => 11
  | .smem => 0
  | _ => 0

abbrev bufTy : (tb : Table) → Fin (tcTables nBuf tb) → BufTy
  | .hbm, ⟨0, _⟩ => ⟨S8x16x512x512, .f32⟩
  | .hbm, ⟨1, _⟩ => ⟨S8x16384x2, .f32⟩
  | .hbm, ⟨2, _⟩ => ⟨S_, .f32⟩
  | .hbm, ⟨3, _⟩ => ⟨S90, .f32⟩
  | .hbm, ⟨4, _⟩ => ⟨S5, .f32⟩
  | .hbm, ⟨5, _⟩ => ⟨S8x16384x1, .f32⟩
  | .hbm, ⟨6, _⟩ => ⟨S8x16384, .f32⟩
  | .hbm, ⟨7, _⟩ => ⟨S_, .f32⟩
  | .hbm, ⟨8, _⟩ => ⟨S8x16384, .f32⟩
  | .hbm, ⟨9, _⟩ => ⟨S8x16384, .f32⟩
  | .hbm, ⟨10, _⟩ => ⟨S8x16384x1, .f32⟩
  | .hbm, ⟨11, _⟩ => ⟨S8x16384, .f32⟩
  | .hbm, ⟨12, _⟩ => ⟨S_, .f32⟩
  | .hbm, ⟨13, _⟩ => ⟨S8x16384, .f32⟩
  | .hbm, ⟨14, _⟩ => ⟨S8x16384, .f32⟩
  | .hbm, ⟨15, _⟩ => ⟨S8x16384, .f32⟩
  | .hbm, ⟨16, _⟩ => ⟨S8x16384, .f32⟩
  | .hbm, ⟨17, _⟩ => ⟨S8x16384x1, .f32⟩
  | .hbm, ⟨18, _⟩ => ⟨S1x1x90, .f32⟩
  | .hbm, ⟨19, _⟩ => ⟨S8x16384x90, .f32⟩
  | .hbm, ⟨20, _⟩ => ⟨S8x16384x90, .f32⟩
  | .hbm, ⟨21, _⟩ => ⟨S8x16384x90, .f32⟩
  | .hbm, ⟨22, _⟩ => ⟨S_, .f32⟩
  | .hbm, ⟨23, _⟩ => ⟨S_, .i32⟩
  | .hbm, ⟨24, _⟩ => ⟨S_, .f32⟩
  | .hbm, ⟨25, _⟩ => ⟨S8x16384x90, .f32⟩
  | .hbm, ⟨26, _⟩ => ⟨S8x16384x90, .f32⟩
  | .hbm, ⟨27, _⟩ => ⟨S_, .f32⟩
  | .hbm, ⟨28, _⟩ => ⟨S8x16384x90, .f32⟩
  | .hbm, ⟨29, _⟩ => ⟨S8x16384x90, .f32⟩
  | .hbm, ⟨30, _⟩ => ⟨S8x16384x1, .f32⟩
  | .hbm, ⟨31, _⟩ => ⟨S1x1x90, .f32⟩
  | .hbm, ⟨32, _⟩ => ⟨S8x16384x90, .f32⟩
  | .hbm, ⟨33, _⟩ => ⟨S8x16384x90, .f32⟩
  | .hbm, ⟨34, _⟩ => ⟨S8x16384x90, .f32⟩
  | .hbm, ⟨35, _⟩ => ⟨S_, .f32⟩
  | .hbm, ⟨36, _⟩ => ⟨S_, .i32⟩
  | .hbm, ⟨37, _⟩ => ⟨S_, .f32⟩
  | .hbm, ⟨38, _⟩ => ⟨S8x16384x90, .f32⟩
  | .hbm, ⟨39, _⟩ => ⟨S8x16384x90, .f32⟩
  | .hbm, ⟨40, _⟩ => ⟨S_, .f32⟩
  | .hbm, ⟨41, _⟩ => ⟨S8x16384x90, .f32⟩
  | .hbm, ⟨42, _⟩ => ⟨S8x16384x90, .f32⟩
  | .hbm, ⟨43, _⟩ => ⟨S8x16384x1, .f32⟩
  | .hbm, ⟨44, _⟩ => ⟨S8x16384x90, .f32⟩
  | .hbm, ⟨45, _⟩ => ⟨S8x16384x90, .f32⟩
  | .hbm, ⟨46, _⟩ => ⟨S8x16384x90, .f32⟩
  | .hbm, ⟨47, _⟩ => ⟨S8x16384x90, .f32⟩
  | .hbm, ⟨48, _⟩ => ⟨S8x16384x90, .f32⟩
  | .hbm, ⟨49, _⟩ => ⟨S_, .f32⟩
  | .hbm, ⟨50, _⟩ => ⟨S8x16384x90, .f32⟩
  | .hbm, ⟨51, _⟩ => ⟨S8x16384x90, .f32⟩
  | .hbm, ⟨52, _⟩ => ⟨S8x16384x90, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8x16384x90, .f32⟩
  | .hbm, ⟨58, _⟩ => ⟨S8x16384x90, .f32⟩
  | .hbm, ⟨59, _⟩ => ⟨S8x16384x5x18, .f32⟩
  | .hbm, ⟨60, _⟩ => ⟨S_, .f32⟩
  | .hbm, ⟨61, _⟩ => ⟨S8x16384x5, .f32⟩
  | .hbm, ⟨62, _⟩ => ⟨S8x16384x1, .f32⟩
  | .hbm, ⟨63, _⟩ => ⟨S8x16384x90, .f32⟩
  | .hbm, ⟨64, _⟩ => ⟨S8x16384x90, .f32⟩
  | .hbm, ⟨65, _⟩ => ⟨S8x16384x90, .f32⟩
  | .hbm, ⟨66, _⟩ => ⟨S8x16384x90, .f32⟩
  | .hbm, ⟨67, _⟩ => ⟨S8x16384x90, .f32⟩
  | .hbm, ⟨68, _⟩ => ⟨S_, .f32⟩
  | .hbm, ⟨69, _⟩ => ⟨S8x16384x90, .f32⟩
  | .hbm, ⟨70, _⟩ => ⟨S8x16384x90, .f32⟩
  | .hbm, ⟨71, _⟩ => ⟨S8x16384x90, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x16384x90, .f32⟩
  | .hbm, ⟨77, _⟩ => ⟨S8x16384x90, .f32⟩
  | .hbm, ⟨78, _⟩ => ⟨S8x16384x5x18, .f32⟩
  | .hbm, ⟨79, _⟩ => ⟨S_, .f32⟩
  | .hbm, ⟨80, _⟩ => ⟨S8x16384x5, .f32⟩
  | .hbm, ⟨81, _⟩ => ⟨S_, .f32⟩
  | .hbm, ⟨82, _⟩ => ⟨S8x16384, .f32⟩
  | .hbm, ⟨83, _⟩ => ⟨S8x16384x1, .f32⟩
  | .hbm, ⟨84, _⟩ => ⟨S8x16384x5, .f32⟩
  | .hbm, ⟨85, _⟩ => ⟨S8x16384x5, .f32⟩
  | .hbm, ⟨86, _⟩ => ⟨S_, .f32⟩
  | .hbm, ⟨87, _⟩ => ⟨S8x16384, .f32⟩
  | .hbm, ⟨88, _⟩ => ⟨S8x16384x1, .f32⟩
  | .hbm, ⟨89, _⟩ => ⟨S8x16384x5, .f32⟩
  | .hbm, ⟨90, _⟩ => ⟨S8x16384x5, .f32⟩
  | .hbm, ⟨91, _⟩ => ⟨S8x16384x1, .f32⟩
  | .hbm, ⟨92, _⟩ => ⟨S1x1x5, .f32⟩
  | .hbm, ⟨93, _⟩ => ⟨S8x16384x5, .f32⟩
  | .hbm, ⟨94, _⟩ => ⟨S8x16384x5, .f32⟩
  | .hbm, ⟨95, _⟩ => ⟨S8x16384x5, .f32⟩
  | .hbm, ⟨96, _⟩ => ⟨S8x16384x5, .f32⟩
  | .hbm, ⟨97, _⟩ => ⟨S_, .i32⟩
  | .hbm, ⟨98, _⟩ => ⟨S_, .i32⟩
  | .hbm, ⟨99, _⟩ => ⟨S_, .f32⟩
  | .hbm, ⟨100, _⟩ => ⟨S8x16384x5, .f32⟩
  | .hbm, ⟨101, _⟩ => ⟨S8x16384x5, .f32⟩
  | .hbm, ⟨102, _⟩ => ⟨S_, .f32⟩
  | .hbm, ⟨103, _⟩ => ⟨S8x16384x5, .f32⟩
  | .hbm, ⟨104, _⟩ => ⟨S8x16384x5, .f32⟩
  | .hbm, ⟨105, _⟩ => ⟨S8x16384x5, .i32⟩
  | .hbm, ⟨106, _⟩ => ⟨S8x16384x1, .f32⟩
  | .hbm, ⟨107, _⟩ => ⟨S1x1x5, .f32⟩
  | .hbm, ⟨108, _⟩ => ⟨S8x16384x5, .f32⟩
  | .hbm, ⟨109, _⟩ => ⟨S8x16384x5, .f32⟩
  | .hbm, ⟨110, _⟩ => ⟨S8x16384x5, .f32⟩
  | .hbm, ⟨111, _⟩ => ⟨S8x16384x5, .f32⟩
  | .hbm, ⟨112, _⟩ => ⟨S_, .i32⟩
  | .hbm, ⟨113, _⟩ => ⟨S_, .i32⟩
  | .hbm, ⟨114, _⟩ => ⟨S_, .f32⟩
  | .hbm, ⟨115, _⟩ => ⟨S8x16384x5, .f32⟩
  | .hbm, ⟨116, _⟩ => ⟨S8x16384x5, .f32⟩
  | .hbm, ⟨117, _⟩ => ⟨S_, .f32⟩
  | .hbm, ⟨118, _⟩ => ⟨S8x16384x5, .f32⟩
  | .hbm, ⟨119, _⟩ => ⟨S8x16384x5, .f32⟩
  | .hbm, ⟨120, _⟩ => ⟨S8x16384x5, .i32⟩
  | .hbm, ⟨121, _⟩ => ⟨S8x5x16384, .f32⟩
  | .hbm, ⟨122, _⟩ => ⟨S8x5x16384, .f32⟩
  | .hbm, ⟨123, _⟩ => ⟨S8x5x16384, .i32⟩
  | .hbm, ⟨124, _⟩ => ⟨S8x5x16384, .i32⟩
  | .hbm, ⟨125, _⟩ => ⟨S8x16x16384, .f32⟩
  | .local _ .vmem, ⟨0, _⟩ => ⟨S1x16x512x512, .f32⟩
  | .local _ .vmem, ⟨1, _⟩ => ⟨S1x5x128, .i32⟩
  | .local _ .vmem, ⟨2, _⟩ => ⟨S1x5x128, .i32⟩
  | .local _ .vmem, ⟨3, _⟩ => ⟨S1x5x128, .i32⟩
  | .local _ .vmem, ⟨4, _⟩ => ⟨S1x5x128, .i32⟩
  | .local _ .vmem, ⟨5, _⟩ => ⟨S1x5x128, .f32⟩
  | .local _ .vmem, ⟨6, _⟩ => ⟨S1x5x128, .f32⟩
  | .local _ .vmem, ⟨7, _⟩ => ⟨S1x5x128, .f32⟩
  | .local _ .vmem, ⟨8, _⟩ => ⟨S1x5x128, .f32⟩
  | .local _ .vmem, ⟨9, _⟩ => ⟨S1x16x128, .f32⟩
  | .local _ .vmem, ⟨10, _⟩ => ⟨S1x16x128, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_c : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_c_3 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_c_13 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_14 : Ref sig .tc := ⟨.hbm, 112, rfl⟩
abbrev main_c_15 : Ref sig .tc := ⟨.hbm, 113, rfl⟩
abbrev main_call7_v0 : Ref sig .tc := ⟨.hbm, 114, rfl⟩
abbrev main_call7_v1 : Ref sig .tc := ⟨.hbm, 115, rfl⟩
abbrev main_call7_v2 : Ref sig .tc := ⟨.hbm, 116, rfl⟩
abbrev main_call7_v3 : Ref sig .tc := ⟨.hbm, 117, rfl⟩
abbrev main_call7_v4 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 128], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x16x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x5x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S8x16384x2_S8x16384x1_0_0_1 : S8x16384x2.Slices ![0, 0, 1] S8x16384x1
  shapeCasts_S8x16384x1_S8x16384 : S8x16384x1.ShapeCasts S8x16384
  bcast_S_S8x16384 : S_.BroadcastsInDim S8x16384 (![] : Fin 0 → Fin S8x16384.rank)
  slices_S8x16384x2_S8x16384x1_0_0_0 : S8x16384x2.Slices ![0, 0, 0] S8x16384x1
  bcast_S8x16384_S8x16384x1_0_1 : S8x16384.BroadcastsInDim S8x16384x1 (![0, 1] : Fin 2 → Fin S8x16384x1.rank)
  bcast_S90_S1x1x90_2 : S90.BroadcastsInDim S1x1x90 (![2] : Fin 1 → Fin S1x1x90.rank)
  bcast_S8x16384x1_S8x16384x90_0_1_2 : S8x16384x1.BroadcastsInDim S8x16384x90 (![0, 1, 2] : Fin 3 → Fin S8x16384x90.rank)
  bcast_S1x1x90_S8x16384x90_0_1_2 : S1x1x90.BroadcastsInDim S8x16384x90 (![0, 1, 2] : Fin 3 → Fin S8x16384x90.rank)
  bcast_S_S8x16384x90 : S_.BroadcastsInDim S8x16384x90 (![] : Fin 0 → Fin S8x16384x90.rank)
  shapeCasts_S8x16384x90_S8x16384x5x18 : S8x16384x90.ShapeCasts S8x16384x5x18
  reducesTo_S8x16384x5x18_S8x16384x5_d3 : S8x16384x5x18.ReducesTo [3] S8x16384x5
  h_S_ : 0 < S_.numel
  reducesTo_S8x16384x5_S8x16384_d2 : S8x16384x5.ReducesTo [2] S8x16384
  bcast_S8x16384x1_S8x16384x5_0_1_2 : S8x16384x1.BroadcastsInDim S8x16384x5 (![0, 1, 2] : Fin 3 → Fin S8x16384x5.rank)
  bcast_S5_S1x1x5_2 : S5.BroadcastsInDim S1x1x5 (![2] : Fin 1 → Fin S1x1x5.rank)
  bcast_S1x1x5_S8x16384x5_0_1_2 : S1x1x5.BroadcastsInDim S8x16384x5 (![0, 1, 2] : Fin 3 → Fin S8x16384x5.rank)
  bcast_S_S8x16384x5 : S_.BroadcastsInDim S8x16384x5 (![] : Fin 0 → Fin S8x16384x5.rank)
  transposes_S8x16384x5_S8x5x16384_0_2_1 : S8x16384x5.Transposes [0, 2, 1] S8x5x16384
  iota_S512x128_d0_w32 : S512x128.Iotas .tc 32 [0]
  inb_S1x5x128_S1x1x128_0_0_0 : ∀ a, (![0, 0, 0] : Fin 3 → Nat) a + S1x1x128.size a ≤ S1x5x128.size a
  h_S1x1x128 : 0 < S1x1x128.numel
  shapeCasts_S1x1x128_S128 : S1x1x128.ShapeCasts S128
  shapeCasts_S128_S1x128 : S128.ShapeCasts S1x128
  broadcasts_S1x128_S512x128 : S1x128.Broadcasts S512x128
  shapeCasts_S1x128_S1x128 : S1x128.ShapeCasts S1x128
  inb_S1x5x128_S1x1x128_0_1_0 : ∀ a, (![0, 1, 0] : Fin 3 → Nat) a + S1x1x128.size a ≤ S1x5x128.size a
  inb_S1x5x128_S1x1x128_0_2_0 : ∀ a, (![0, 2, 0] : Fin 3 → Nat) a + S1x1x128.size a ≤ S1x5x128.size a
  inb_S1x5x128_S1x1x128_0_3_0 : ∀ a, (![0, 3, 0] : Fin 3 → Nat) a + S1x1x128.size a ≤ S1x5x128.size a
  inb_S1x5x128_S1x1x128_0_4_0 : ∀ a, (![0, 4, 0] : Fin 3 → Nat) a + S1x1x128.size a ≤ S1x5x128.size a
  inb_S1x16x512x512_S1x16x512x512_0_0_0_0 : ∀ a, (![0, 0, 0, 0] : Fin 4 → Nat) a + S1x16x512x512.size a ≤ S1x16x512x512.size a
  h_S1x16x512x512 : 0 < S1x16x512x512.numel
  shapeCasts_S1x16x512x512_S16x512x512 : S1x16x512x512.ShapeCasts S16x512x512
  shapeCasts_S16x512x512_S8192x512 : S16x512x512.ShapeCasts S8192x512
  bitsLt_bf16_f32 : FTy.bits .bf16 < FTy.bits .f32
  shapeCasts_S8192x128_S16x512x128 : S8192x128.ShapeCasts S16x512x128
  shapeCasts_S512x128_S1x512x128 : S512x128.ShapeCasts S1x512x128
  broadcasts_S1x512x128_S16x512x128 : S1x512x128.Broadcasts S16x512x128
  reduces_S16x512x128_S16x128 : S16x512x128.Reduces [1] S16x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  dot_S8192x512_S512x128_S8192x128_1_0_0_1_n_n_wf : DotDims.WF S8192x512 S512x128 S8192x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x16x512x512.size a ≤ S8x16x512x512.size a
  hwx0_0 : ∀ i : grid0.Coords, EltTy.bits .f32 = 32 ∨ (Rect.block (s := S8x16x512x512) S1x16x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x128.size a ≤ S8x5x16384.size a
  hwx0_1 : ∀ i : grid0.Coords, EltTy.bits .i32 = 32 ∨ (Rect.block (s := S8x5x16384) S1x5x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x128.size a ≤ S8x5x16384.size a
  hwx0_2 : ∀ i : grid0.Coords, EltTy.bits .i32 = 32 ∨ (Rect.block (s := S8x5x16384) S1x5x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5x128.size a ≤ S8x5x16384.size a
  hwx0_3 : ∀ i : grid0.Coords, EltTy.bits .f32 = 32 ∨ (Rect.block (s := S8x5x16384) S1x5x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5x128.size a ≤ S8x5x16384.size a
  hwx0_4 : ∀ i : grid0.Coords, EltTy.bits .f32 = 32 ∨ (Rect.block (s := S8x5x16384) S1x5x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x128.size a ≤ S8x16x16384.size a
  hwx0_5 : ∀ i : grid0.Coords, EltTy.bits .f32 = 32 ∨ (Rect.block (s := S8x16x16384) S1x16x128.size (cc0_transform_5 i) (hinb0_5 i)).WholeWords (EltTy.packing .f32)

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf

abbrev win0_0 : Pipeline.Window sig grid0 :=
  Pipeline.Window.ofSpec (Memref.whole main_arg0) S1x16x512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v80) S1x5x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v81) S1x5x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v78) S1x5x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v79) S1x5x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v82) S1x16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x16384x2 : Shape := ⟨3, ![8, 16384, 2]⟩
abbrev S_ : Shape := ⟨0, ![]⟩
abbrev S90 : Shape := ⟨1, ![90]⟩
abbrev S5 : Shape := ⟨1, ![5]⟩
abbrev S8x16384x1 : Shape := ⟨3, ![8, 16384, 1]⟩
abbrev S8x16384 : Shape := ⟨2, ![8, 16384]⟩
abbrev S1x1x90 : Shape := ⟨3, ![1, 1, 90]⟩
abbrev S8x16384x90 : Shape := ⟨3, ![8, 16384, 90]⟩
abbrev S8x16384x5x18 : Shape := ⟨4, ![8, 16384, 5, 18]⟩
abbrev S8x16384x5 : Shape := ⟨3, ![8, 16384, 5]⟩
abbrev S8x16384x5x1 : Shape := ⟨4, ![8, 16384, 5, 1]⟩
abbrev S8x16384x1x5 : Shape := ⟨4, ![8, 16384, 1, 5]⟩
abbrev S8x16384x5x5 : Shape := ⟨4, ![8, 16384, 5, 5]⟩
abbrev S8x16384x25 : Shape := ⟨3, ![8, 16384, 25]⟩
abbrev S8x16384x1x1 : Shape := ⟨4, ![8, 16384, 1, 1]⟩
abbrev S1x1x5 : Shape := ⟨3, ![1, 1, 5]⟩
abbrev S8x409600 : Shape := ⟨2, ![8, 409600]⟩
abbrev S8x16x262144 : Shape := ⟨3, ![8, 16, 262144]⟩
abbrev S8x409600x1 : Shape := ⟨3, ![8, 409600, 1]⟩
abbrev S8x16x409600 : Shape := ⟨3, ![8, 16, 409600]⟩
abbrev S8x16x16384x5x5 : Shape := ⟨5, ![8, 16, 16384, 5, 5]⟩
abbrev S8x1x16384x5x5 : Shape := ⟨5, ![8, 1, 16384, 5, 5]⟩
abbrev S8x16x16384x25 : Shape := ⟨4, ![8, 16, 16384, 25]⟩
abbrev S8x16x16384 : Shape := ⟨3, ![8, 16, 16384]⟩

abbrev nBuf : Space → Nat
  | .hbm => 148
  | .vmem => 0
  | .smem => 0
  | _ => 0

abbrev hbmTy0_0 (i : Nat) : BufTy := match i % 128 with
  | 0 => ⟨S8x16x512x512, .f32⟩
  | 1 => ⟨S8x16384x2, .f32⟩
  | 2 => ⟨S_, .f32⟩
  | 3 => ⟨S90, .f32⟩
  | 4 => ⟨S5, .f32⟩
  | 5 => ⟨S8x16384x1, .f32⟩
  | 6 => ⟨S8x16384, .f32⟩
  | 7 => ⟨S_, .f32⟩
  | 8 => ⟨S8x16384, .f32⟩
  | 9 => ⟨S8x16384, .f32⟩
  | 10 => ⟨S8x16384x1, .f32⟩
  | 11 => ⟨S8x16384, .f32⟩
  | 12 => ⟨S_, .f32⟩
  | 13 => ⟨S8x16384, .f32⟩
  | 14 => ⟨S8x16384, .f32⟩
  | 15 => ⟨S8x16384, .f32⟩
  | 16 => ⟨S8x16384, .f32⟩
  | 17 => ⟨S8x16384x1, .f32⟩
  | 18 => ⟨S1x1x90, .f32⟩
  | 19 => ⟨S8x16384x90, .f32⟩
  | 20 => ⟨S8x16384x90, .f32⟩
  | 21 => ⟨S8x16384x90, .f32⟩
  | 22 => ⟨S_, .f32⟩
  | 23 => ⟨S_, .i32⟩
  | 24 => ⟨S_, .f32⟩
  | 25 => ⟨S8x16384x90, .f32⟩
  | 26 => ⟨S8x16384x90, .f32⟩
  | 27 => ⟨S_, .f32⟩
  | 28 => ⟨S8x16384x90, .f32⟩
  | 29 => ⟨S8x16384x90, .f32⟩
  | 30 => ⟨S8x16384x1, .f32⟩
  | 31 => ⟨S1x1x90, .f32⟩
  | 32 => ⟨S8x16384x90, .f32⟩
  | 33 => ⟨S8x16384x90, .f32⟩
  | 34 => ⟨S8x16384x90, .f32⟩
  | 35 => ⟨S_, .f32⟩
  | 36 => ⟨S_, .i32⟩
  | 37 => ⟨S_, .f32⟩
  | 38 => ⟨S8x16384x90, .f32⟩
  | 39 => ⟨S8x16384x90, .f32⟩
  | 40 => ⟨S_, .f32⟩
  | 41 => ⟨S8x16384x90, .f32⟩
  | 42 => ⟨S8x16384x90, .f32⟩
  | 43 => ⟨S8x16384x1, .f32⟩
  | 44 => ⟨S8x16384x90, .f32⟩
  | 45 => ⟨S8x16384x90, .f32⟩
  | 46 => ⟨S8x16384x90, .f32⟩
  | 47 => ⟨S8x16384x90, .f32⟩
  | 48 => ⟨S8x16384x90, .f32⟩
  | 49 => ⟨S_, .f32⟩
  | 50 => ⟨S8x16384x90, .f32⟩
  | 51 => ⟨S8x16384x90, .f32⟩
  | 52 => ⟨S8x16384x90, .f32⟩
  | 53 => ⟨S_, .f32⟩
  | 54 => ⟨S_, .f32⟩
  | 55 => ⟨S_, .f32⟩
  | 56 => ⟨S_, .f32⟩
  | 57 => ⟨S8x16384x90, .f32⟩
  | 58 => ⟨S8x16384x90, .f32⟩
  | 59 => ⟨S8x16384x5x18, .f32⟩
  | 60 => ⟨S_, .f32⟩
  | 61 => ⟨S8x16384x5, .f32⟩
  | 62 => ⟨S8x16384x1, .f32⟩
  | 63 => ⟨S8x16384x90, .f32⟩
  | 64 => ⟨S8x16384x90, .f32⟩
  | 65 => ⟨S8x16384x90, .f32⟩
  | 66 => ⟨S8x16384x90, .f32⟩
  | 67 => ⟨S8x16384x90, .f32⟩
  | 68 => ⟨S_, .f32⟩
  | 69 => ⟨S8x16384x90, .f32⟩
  | 70 => ⟨S8x16384x90, .f32⟩
  | 71 => ⟨S8x16384x90, .f32⟩
  | 72 => ⟨S_, .f32⟩
  | 73 => ⟨S_, .f32⟩
  | 74 => ⟨S_, .f32⟩
  | 75 => ⟨S_, .f32⟩
  | 76 => ⟨S8x16384x90, .f32⟩
  | 77 => ⟨S8x16384x90, .f32⟩
  | 78 => ⟨S8x16384x5x18, .f32⟩
  | 79 => ⟨S_, .f32⟩
  | 80 => ⟨S8x16384x5, .f32⟩
  | 81 => ⟨S8x16384x5x1, .f32⟩
  | 82 => ⟨S8x16384x1x5, .f32⟩
  | 83 => ⟨S8x16384x5x5, .f32⟩
  | 84 => ⟨S8x16384x5x5, .f32⟩
  | 85 => ⟨S8x16384x5x5, .f32⟩
  | 86 => ⟨S8x16384x25, .f32⟩
  | 87 => ⟨S_, .f32⟩
  | 88 => ⟨S8x16384, .f32⟩
  | 89 => ⟨S8x16384x1x1, .f32⟩
  | 90 => ⟨S8x16384x5x5, .f32⟩
  | 91 => ⟨S8x16384x5x5, .f32⟩
  | 92 => ⟨S8x16384x1, .f32⟩
  | 93 => ⟨S1x1x5, .f32⟩
  | 94 => ⟨S8x16384x5, .f32⟩
  | 95 => ⟨S8x16384x5, .f32⟩
  | 96 => ⟨S8x16384x5, .f32⟩
  | 97 => ⟨S8x16384x5, .f32⟩
  | 98 => ⟨S_, .i32⟩
  | 99 => ⟨S_, .i32⟩
  | 100 => ⟨S_, .f32⟩
  | 101 => ⟨S8x16384x5, .f32⟩
  | 102 => ⟨S8x16384x5, .f32⟩
  | 103 => ⟨S_, .f32⟩
  | 104 => ⟨S8x16384x5, .f32⟩
  | 105 => ⟨S8x16384x5, .f32⟩
  | 106 => ⟨S8x16384x5, .i32⟩
  | 107 => ⟨S8x16384x1, .f32⟩
  | 108 => ⟨S1x1x5, .f32⟩
  | 109 => ⟨S8x16384x5, .f32⟩
  | 110 => ⟨S8x16384x5, .f32⟩
  | 111 => ⟨S8x16384x5, .f32⟩
  | 112 => ⟨S8x16384x5, .f32⟩
  | 113 => ⟨S_, .i32⟩
  | 114 => ⟨S_, .i32⟩
  | 115 => ⟨S_, .f32⟩
  | 116 => ⟨S8x16384x5, .f32⟩
  | 117 => ⟨S8x16384x5, .f32⟩
  | 118 => ⟨S_, .f32⟩
  | 119 => ⟨S8x16384x5, .f32⟩
  | 120 => ⟨S8x16384x5, .f32⟩
  | 121 => ⟨S8x16384x5, .i32⟩
  | 122 => ⟨S8x16384x5x1, .i32⟩
  | 123 => ⟨S_, .i32⟩
  | 124 => ⟨S8x16384x5x1, .i32⟩
  | 125 => ⟨S8x16384x5x1, .i32⟩
  | 126 => ⟨S8x16384x1x5, .i32⟩
  | 127 => ⟨S8x16384x5x5, .i32⟩
  | _ => ⟨S8x16x512x512, .f32⟩

abbrev hbmTy0_1 (i : Nat) : BufTy := match i % 128 with
  | 0 => ⟨S8x16384x5x5, .i32⟩
  | 1 => ⟨S8x16384x5x5, .i32⟩
  | 2 => ⟨S8x409600, .i32⟩
  | 3 => ⟨S8x16x262144, .f32⟩
  | 4 => ⟨S_, .i32⟩
  | 5 => ⟨S8x409600, .i32⟩
  | 6 => ⟨S8x409600, .i1⟩
  | 7 => ⟨S_, .i32⟩
  | 8 => ⟨S8x409600, .i32⟩
  | 9 => ⟨S8x409600, .i32⟩
  | 10 => ⟨S8x409600, .i32⟩
  | 11 => ⟨S8x409600x1, .i32⟩
  | 12 => ⟨S8x16x409600, .f32⟩
  | 13 => ⟨S8x16x16384x5x5, .f32⟩
  | 14 => ⟨S8x1x16384x5x5, .f32⟩
  | 15 => ⟨S8x16x16384x5x5, .f32⟩
  | 16 => ⟨S8x16x16384x5x5, .f32⟩
  | 17 => ⟨S8x16x16384x25, .f32⟩
  | 18 => ⟨S_, .f32⟩
  | 19 => ⟨S8x16x16384, .f32⟩
  | _ => ⟨S8x16x512x512, .f32⟩

abbrev hbmTy (i : Nat) : BufTy := match i / 128 with
  | 0 => hbmTy0_0 i
  | 1 => hbmTy0_1 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_c : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_c_3 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_11 : Ref sig .tc := ⟨.hbm, 98, rfl⟩
abbrev main_c_12 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_13 : Ref sig .tc := ⟨.hbm, 113, rfl⟩
abbrev main_c_14 : Ref sig .tc := ⟨.hbm, 114, rfl⟩
abbrev main_call7_v0 : Ref sig .tc := ⟨.hbm, 115, rfl⟩
abbrev main_call7_v1 : Ref sig .tc := ⟨.hbm, 116, rfl⟩
abbrev main_call7_v2 : Ref sig .tc := ⟨.hbm, 117, rfl⟩
abbrev main_call7_v3 : Ref sig .tc := ⟨.hbm, 118, rfl⟩
abbrev main_call7_v4 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_15 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_16 : Ref sig .tc := ⟨.hbm, 132, rfl⟩
abbrev main_v89 : Ref sig .tc := ⟨.hbm, 133, rfl⟩
abbrev main_v90 : Ref sig .tc := ⟨.hbm, 134, rfl⟩
abbrev main_c_17 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_18 : Ref sig .tc := ⟨.hbm, 146, rfl⟩
abbrev main_v101 : Ref sig .tc := ⟨.hbm, 147, rfl⟩

abbrev nD : Nat := 1
abbrev τ : Topo := Topo.v7x

variable {F : FTy → Type} [FloatOps F]

class Facts₀ : Prop where
  slices_S8x16384x2_S8x16384x1_0_0_1 : S8x16384x2.Slices ![0, 0, 1] S8x16384x1
  shapeCasts_S8x16384x1_S8x16384 : S8x16384x1.ShapeCasts S8x16384
  bcast_S_S8x16384 : S_.BroadcastsInDim S8x16384 (![] : Fin 0 → Fin S8x16384.rank)
  slices_S8x16384x2_S8x16384x1_0_0_0 : S8x16384x2.Slices ![0, 0, 0] S8x16384x1
  bcast_S8x16384_S8x16384x1_0_1 : S8x16384.BroadcastsInDim S8x16384x1 (![0, 1] : Fin 2 → Fin S8x16384x1.rank)
  bcast_S90_S1x1x90_2 : S90.BroadcastsInDim S1x1x90 (![2] : Fin 1 → Fin S1x1x90.rank)
  bcast_S8x16384x1_S8x16384x90_0_1_2 : S8x16384x1.BroadcastsInDim S8x16384x90 (![0, 1, 2] : Fin 3 → Fin S8x16384x90.rank)
  bcast_S1x1x90_S8x16384x90_0_1_2 : S1x1x90.BroadcastsInDim S8x16384x90 (![0, 1, 2] : Fin 3 → Fin S8x16384x90.rank)
  bcast_S_S8x16384x90 : S_.BroadcastsInDim S8x16384x90 (![] : Fin 0 → Fin S8x16384x90.rank)
  shapeCasts_S8x16384x90_S8x16384x5x18 : S8x16384x90.ShapeCasts S8x16384x5x18
  reducesTo_S8x16384x5x18_S8x16384x5_d3 : S8x16384x5x18.ReducesTo [3] S8x16384x5
  h_S_ : 0 < S_.numel
  bcast_S8x16384x5_S8x16384x5x1_0_1_2 : S8x16384x5.BroadcastsInDim S8x16384x5x1 (![0, 1, 2] : Fin 3 → Fin S8x16384x5x1.rank)
  bcast_S8x16384x5_S8x16384x1x5_0_1_3 : S8x16384x5.BroadcastsInDim S8x16384x1x5 (![0, 1, 3] : Fin 3 → Fin S8x16384x1x5.rank)
  bcast_S8x16384x5x1_S8x16384x5x5_0_1_2_3 : S8x16384x5x1.BroadcastsInDim S8x16384x5x5 (![0, 1, 2, 3] : Fin 4 → Fin S8x16384x5x5.rank)
  bcast_S8x16384x1x5_S8x16384x5x5_0_1_2_3 : S8x16384x1x5.BroadcastsInDim S8x16384x5x5 (![0, 1, 2, 3] : Fin 4 → Fin S8x16384x5x5.rank)
  shapeCasts_S8x16384x5x5_S8x16384x25 : S8x16384x5x5.ShapeCasts S8x16384x25
  reducesTo_S8x16384x25_S8x16384_d2 : S8x16384x25.ReducesTo [2] S8x16384
  bcast_S8x16384_S8x16384x1x1_0_1 : S8x16384.BroadcastsInDim S8x16384x1x1 (![0, 1] : Fin 2 → Fin S8x16384x1x1.rank)
  bcast_S8x16384x1x1_S8x16384x5x5_0_1_2_3 : S8x16384x1x1.BroadcastsInDim S8x16384x5x5 (![0, 1, 2, 3] : Fin 4 → Fin S8x16384x5x5.rank)
  bcast_S5_S1x1x5_2 : S5.BroadcastsInDim S1x1x5 (![2] : Fin 1 → Fin S1x1x5.rank)
  bcast_S8x16384x1_S8x16384x5_0_1_2 : S8x16384x1.BroadcastsInDim S8x16384x5 (![0, 1, 2] : Fin 3 → Fin S8x16384x5.rank)
  bcast_S1x1x5_S8x16384x5_0_1_2 : S1x1x5.BroadcastsInDim S8x16384x5 (![0, 1, 2] : Fin 3 → Fin S8x16384x5.rank)
  bcast_S_S8x16384x5 : S_.BroadcastsInDim S8x16384x5 (![] : Fin 0 → Fin S8x16384x5.rank)
  bcast_S_S8x16384x5x1 : S_.BroadcastsInDim S8x16384x5x1 (![] : Fin 0 → Fin S8x16384x5x1.rank)
  shapeCasts_S8x16384x5x5_S8x409600 : S8x16384x5x5.ShapeCasts S8x409600
  shapeCasts_S8x16x512x512_S8x16x262144 : S8x16x512x512.ShapeCasts S8x16x262144
  bcast_S_S8x409600 : S_.BroadcastsInDim S8x409600 (![] : Fin 0 → Fin S8x409600.rank)
  bcast_S8x409600_S8x409600x1_0_1 : S8x409600.BroadcastsInDim S8x409600x1 (![0, 1] : Fin 2 → Fin S8x409600x1.rank)
  shapeCasts_S8x16x409600_S8x16x16384x5x5 : S8x16x409600.ShapeCasts S8x16x16384x5x5
  bcast_S8x16384x5x5_S8x1x16384x5x5_0_2_3_4 : S8x16384x5x5.BroadcastsInDim S8x1x16384x5x5 (![0, 2, 3, 4] : Fin 4 → Fin S8x1x16384x5x5.rank)
  bcast_S8x1x16384x5x5_S8x16x16384x5x5_0_1_2_3_4 : S8x1x16384x5x5.BroadcastsInDim S8x16x16384x5x5 (![0, 1, 2, 3, 4] : Fin 5 → Fin S8x16x16384x5x5.rank)
  shapeCasts_S8x16x16384x5x5_S8x16x16384x25 : S8x16x16384x5x5.ShapeCasts S8x16x16384x25
  reducesTo_S8x16x16384x25_S8x16x16384_d3 : S8x16x16384x25.ReducesTo [3] S8x16x16384
  gather_S8x16x262144_S8x409600x1_S8x16x409600_1_2_0_0_2_2_1161_wf : GatherDims.WF S8x16x262144 S8x409600x1 S8x16x409600 [1] [2] [0] [2] [0] 2 ![1, 16, 1]

variable [Facts₀]

def gather_S8x16x262144_S8x409600x1_S8x16x409600_1_2_0_0_2_2_1161 : GatherDims S8x16x262144 S8x409600x1 S8x16x409600 where
  offsetDims := [1]
  collapsedSliceDims := [2]
  operandBatchingDims := [0]
  startIndicesBatchingDims := [0]
  startIndexMap := [2]
  indexVectorDim := 2
  sliceSizes := ![1, 16, 1]
  wf := gather_S8x16x262144_S8x409600x1_S8x16x409600_1_2_0_0_2_2_1161_wf

class Facts : Prop extends Facts₀ where

variable [Facts]
-- ==== Proof.Spec.lean ====
/-
  The two arrangements of a separable 5×5 weighted pick, as functions of whole arrays.

  For every batch b and query point n there are five row numbers ix[b,n,·] and five column numbers iy[b,n,·]
  (machine integers), with row weights wx[b,n,·] and column weights wy[b,n,·] (extended reals).

  * `taps25`: the weighted sum of the 25 picked pixels x[b,c,ix h,iy h'], the weight of tap (h,h') being
    wx h · wy h' divided by the sum of all 25 such products.
  * `twoPass`: each family of five (number, weight) pairs is first spread into a dense vector over the 512 positions
    (`dense`: position j gets the sum of the weights whose number is j); the image is contracted with the dense column
    vector, the result multiplied by the dense row vector and summed over the rows. The weights it is given are
    each family's weights divided by the family's own sum (`normT`), in the layout [b, tap, n].

  The two agree when the pixels are real, the numbers are below 512, and the weights are either all positive reals or
  all −∞ (the value every weight takes when the Gaussian's width is zero): `Algebra.lean`.
-/
import Idealize.ShloMosaic.PureOps.Ideal
import Idealize.ShloMosaic.Lib.ValueIdx

noncomputable section

namespace Cert.Stencil

open Idealize.ShloMosaic Idealize.ShloMosaic.ValueIdx

/-- The image [batch, channel, row, column]. -/
abbrev SImg : Shape := ⟨4, ![8, 16, 512, 512]⟩
/-- A table of five taps per query point, [batch, point, tap]. -/
abbrev STab : Shape := ⟨3, ![8, 16384, 5]⟩
/-- The same table with the taps before the points, [batch, tap, point]. -/
abbrev STabT : Shape := ⟨3, ![8, 5, 16384]⟩
/-- The result [batch, channel, point]. -/
abbrev SOut : Shape := ⟨3, ![8, 16, 16384]⟩

/-- The first factor (0 … 4) of tap k of 25. -/
abbrev tapRow (k : Fin 25) : Fin 5 := ⟨k.val / 5, by have := k.isLt; omega⟩
/-- The second factor (0 … 4) of tap k of 25. -/
abbrev tapCol (k : Fin 25) : Fin 5 := ⟨k.val % 5, Nat.mod_lt _ (by decide)⟩

/-- A machine integer read as a position among 512 (the identity on numbers below 512). -/
abbrev pos (v : BitVec 32) : Fin 512 := ⟨v.toNat % 512, Nat.mod_lt _ (by decide)⟩

/-- Five (number, weight) pairs spread over 512 positions: position j gets the sum of the weights whose number is j. -/
def dense (idx : Fin 5 → BitVec 32) (w : Fin 5 → EReal) (j : Fin 512) : EReal :=
  ∑ h : Fin 5, if BitVec.ofNat 32 j.val = idx h then w h else 0

/-- Contract the image with the dense column vector, weigh by the dense row vector, sum over the rows. The tables are
    in the layout [batch, tap, point]. -/
def twoPass (x : SImg.Idx → EReal) (ixT iyT : STabT.Idx → BitVec 32) (wxT wyT : STabT.Idx → EReal) : SOut.Idx → EReal :=
  fun i => ∑ p : Fin 512,
    (∑ q : Fin 512, x (ix4 (i 0) (i 1) p q) * dense (fun h => iyT (ix3 (i 0) h (i 2))) (fun h => wyT (ix3 (i 0) h (i 2))) q)
      * dense (fun h => ixT (ix3 (i 0) h (i 2))) (fun h => wxT (ix3 (i 0) h (i 2))) p

/-- A table [batch, point, tap] read in the layout [batch, tap, point]. -/
def swapT {α : Type} (a : STab.Idx → α) : STabT.Idx → α := fun j => a (ix3 (j 0) (j 2) (j 1))

/-- Each point's five weights divided by their sum, in the layout [batch, tap, point]. -/
def normT (w : STab.Idx → EReal) : STabT.Idx → EReal := fun j =>
  Ideal.div (w (ix3 (j 0) (j 2) (j 1))) (∑ h : Fin 5, w (ix3 (j 0) (j 2) h))

/-- The weighted sum of the 25 picked pixels, tap (h,h') weighing wx h · wy h' over the sum of all 25 products. -/
def taps25 (x : SImg.Idx → EReal) (ix iy : STab.Idx → BitVec 32) (wx wy : STab.Idx → EReal) : SOut.Idx → EReal :=
  fun i => ∑ k : Fin 25,
    x (ix4 (i 0) (i 1) (pos (ix (ix3 (i 0) (i 2) (tapRow k)))) (pos (iy (ix3 (i 0) (i 2) (tapCol k)))))
      * Ideal.div (wx (ix3 (i 0) (i 2) (tapRow k)) * wy (ix3 (i 0) (i 2) (tapCol k)))
          (∑ k' : Fin 25, wx (ix3 (i 0) (i 2) (tapRow k')) * wy (ix3 (i 0) (i 2) (tapCol k')))

end Cert.Stencil

end
-- ==== Proof.Algebra.lean ====
/-
  The two arrangements of the separable 5×5 weighted pick agree.

  At one output index everything depends on a 512×512 slab of real pixels X, five row numbers and five column
  numbers below 512, and five raw row weights a and five raw column weights b.

  * If the raw weights are positive reals, every normalized weight a h / Σ a, b h / Σ b is a real, each dense vector is
    the coercion of a real vector, and the claim is an identity between finite sums of reals:
      Σ_p (Σ_q X p q · Σ_h [q = q_h] β_h) · Σ_h' [p = p_h'] α_h'  =  Σ_h' Σ_h X (p_h') (q_h) · (α_h' · β_h),
    with (a h' / Σ a) · (b h / Σ b) = a h' · b h / (Σ a · Σ b) and Σ_k a (k / 5) · b (k % 5) = Σ a · Σ b.
  * If every raw weight is −∞, every normalized weight is −∞ · (−∞)⁻¹ = −∞ · 0 = 0, so the two-pass side is 0; on the
    other side each product of raw weights is +∞, their sum is +∞, +∞ · (+∞)⁻¹ = 0, and every term is 0.
-/
import proofs.«110536_j37890201485784_1_alg».proof.Proof.Spec
import Mathlib.Data.EReal.Inv
import Mathlib.Logic.Equiv.Fin.Basic
import Mathlib.Algebra.BigOperators.Fin
import Mathlib.Algebra.BigOperators.Ring.Finset
import Mathlib.Algebra.Order.BigOperators.Group.Finset
import Mathlib.Tactic.Ring
import Mathlib.Tactic.FieldSimp

noncomputable section

namespace Cert.Stencil

open Idealize.ShloMosaic Idealize.ShloMosaic.ValueIdx

open scoped BigOperators

/-! ## Small facts -/

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A position among 512 names the machine integer v below 512 exactly when it is the position of v. -/
theorem ofNat_eq_iff {v : BitVec 32} (hv : v.toNat < 512) (j : Fin 512) :
    BitVec.ofNat 32 j.val = v ↔ j = pos v := by
  have hj := j.isLt
  constructor
  · intro h
    have h' : (BitVec.ofNat 32 j.val).toNat = v.toNat := by rw [h]
    rw [BitVec.toNat_ofNat] at h'
    apply Fin.ext
    show j.val = v.toNat % 512
    omega
  · intro h
    apply BitVec.eq_of_toNat_eq
    rw [BitVec.toNat_ofNat, h]
    show (v.toNat % 512) % 2 ^ 32 = v.toNat
    omega

/-- A quotient of reals with a nonzero divisor, read in the extended reals. -/
theorem div_coe_coe (r s : ℝ) (hs : s ≠ 0) : Ideal.div (r : EReal) (s : EReal) = ((r / s : ℝ) : EReal) := by
  rw [Ideal.div_coe hs, ← EReal.coe_mul, mul_one_div]

/-- The quotient of −∞ by −∞ reads −∞ · 0 = 0. -/
theorem div_bot_bot : Ideal.div (⊥ : EReal) ⊥ = 0 := by
  rw [Ideal.div, if_neg EReal.bot_ne_zero, EReal.inv_bot, mul_zero]

/-- The quotient of +∞ by +∞ reads +∞ · 0 = 0. -/
theorem div_top_top : Ideal.div (⊤ : EReal) ⊤ = 0 := by
  rw [Ideal.div, if_neg EReal.top_ne_zero, EReal.inv_top, mul_zero]

/-- A dense vector of real weights is the coercion of the real dense vector. -/
theorem dense_coe {idx : Fin 5 → BitVec 32} (hidx : ∀ h, (idx h).toNat < 512) (w : Fin 5 → ℝ) (j : Fin 512) :
    dense idx (fun h => (w h : EReal)) j = ((∑ h : Fin 5, if j = pos (idx h) then w h else 0 : ℝ) : EReal) := by
  rw [dense, coe_sum]
  refine Finset.sum_congr rfl fun h _ => ?_
  by_cases hj : j = pos (idx h)
  · rw [if_pos ((ofNat_eq_iff (hidx h) j).2 hj), if_pos hj]
  · rw [if_neg (fun h' => hj ((ofNat_eq_iff (hidx h) j).1 h')), if_neg hj, EReal.coe_zero]

/-- A sum over the 25 taps is the double sum over their two factors. -/
theorem sum_fin25 {M : Type} [AddCommMonoid M] (f : Fin 5 → Fin 5 → M) :
    ∑ k : Fin 25, f (tapRow k) (tapCol k) = ∑ h' : Fin 5, ∑ h : Fin 5, f h' h := by
  rw [← Fintype.sum_prod_type']
  exact Fintype.sum_equiv (finProdFinEquiv (m := 5) (n := 5)).symm _ _ (fun k => rfl)

/-! ## The identity in the reals -/

/-- Contracting a slab with two dense vectors picks the 25 entries the numbers name. -/
theorem real_twoPass (X : Fin 512 → Fin 512 → ℝ) (P Q : Fin 5 → Fin 512) (α β : Fin 5 → ℝ) :
    ∑ p : Fin 512, (∑ q : Fin 512, X p q * (∑ h : Fin 5, if q = Q h then β h else 0))
        * (∑ h : Fin 5, if p = P h then α h else 0)
      = ∑ h' : Fin 5, ∑ h : Fin 5, X (P h') (Q h) * (α h' * β h) := by
  have inner : ∀ p, ∑ q : Fin 512, X p q * (∑ h : Fin 5, if q = Q h then β h else 0)
      = ∑ h : Fin 5, X p (Q h) * β h := by
    intro p
    simp only [Finset.mul_sum, mul_ite, mul_zero]
    rw [Finset.sum_comm]
    refine Finset.sum_congr rfl fun h _ => ?_
    rw [Finset.sum_ite_eq', if_pos (Finset.mem_univ _)]
  simp only [inner]
  simp only [Finset.mul_sum, mul_ite, mul_zero]
  rw [Finset.sum_comm]
  refine Finset.sum_congr rfl fun h' _ => ?_
  rw [Finset.sum_ite_eq', if_pos (Finset.mem_univ _), Finset.sum_mul]
  refine Finset.sum_congr rfl fun h _ => ?_
  ring

/-! ## One output index -/

/-- The product of −∞ with itself is +∞. -/
theorem bot_mul_bot' : (⊥ : EReal) * ⊥ = ⊤ := rfl

/-- The claim at one output index, over the slab, the numbers and the raw weights it depends on. -/
theorem local_eq (X : Fin 512 → Fin 512 → EReal) (rI cI : Fin 5 → BitVec 32) (a b : Fin 5 → EReal)
    (hX : ∀ p q, ∃ r : ℝ, X p q = (r : EReal))
    (hr : ∀ h, (rI h).toNat < 512) (hc : ∀ h, (cI h).toNat < 512)
    (hw : ((∀ h, ∃ r : ℝ, 0 < r ∧ a h = (r : EReal)) ∧ (∀ h, ∃ r : ℝ, 0 < r ∧ b h = (r : EReal)))
          ∨ ((∀ h, a h = ⊥) ∧ (∀ h, b h = ⊥))) :
    ∑ p : Fin 512, (∑ q : Fin 512, X p q * dense cI (fun h => Ideal.div (b h) (∑ h' : Fin 5, b h')) q)
        * dense rI (fun h => Ideal.div (a h) (∑ h' : Fin 5, a h')) p
      = ∑ k : Fin 25, X (pos (rI (tapRow k))) (pos (cI (tapCol k)))
          * Ideal.div (a (tapRow k) * b (tapCol k)) (∑ k' : Fin 25, a (tapRow k') * b (tapCol k')) := by
  rcases hw with ⟨ha, hb⟩ | ⟨ha, hb⟩
  · -- positive real weights: everything is the coercion of a real
    choose Xr hXr using hX
    choose ar har_pos har using ha
    choose br hbr_pos hbr using hb
    obtain rfl : X = fun p q => (Xr p q : EReal) := funext fun p => funext fun q => hXr p q
    obtain rfl : a = fun h => (ar h : EReal) := funext har
    obtain rfl : b = fun h => (br h : EReal) := funext hbr
    have hSa : 0 < ∑ h : Fin 5, ar h := Finset.sum_pos (fun h _ => har_pos h) Finset.univ_nonempty
    have hSb : 0 < ∑ h : Fin 5, br h := Finset.sum_pos (fun h _ => hbr_pos h) Finset.univ_nonempty
    have hden : ∑ k' : Fin 25, ar (tapRow k') * br (tapCol k') = (∑ h : Fin 5, ar h) * ∑ h : Fin 5, br h := by
      rw [Finset.sum_mul_sum, sum_fin25 (fun h' h => ar h' * br h)]
    have hne : (∑ h : Fin 5, ar h) * ∑ h : Fin 5, br h ≠ 0 := (mul_pos hSa hSb).ne'
    simp only [← coe_sum]
    simp only [div_coe_coe _ _ hSa.ne', div_coe_coe _ _ hSb.ne', dense_coe hr, dense_coe hc, ← EReal.coe_mul,
      ← coe_sum]
    rw [hden]
    simp only [div_coe_coe _ _ hne, ← EReal.coe_mul, ← coe_sum]
    rw [real_twoPass,
      sum_fin25 (fun h' h => Xr (pos (rI h')) (pos (cI h)) * (ar h' * br h / ((∑ i : Fin 5, ar i) * ∑ i : Fin 5, br i)))]
    congr 1
    refine Finset.sum_congr rfl fun h' _ => Finset.sum_congr rfl fun h _ => ?_
    rw [div_mul_div_comm]
  · -- every raw weight is −∞: both sides are 0
    have hsa : ∑ h' : Fin 5, a h' = ⊥ := by simp only [ha, Fin.sum_univ_five, EReal.bot_add]
    have hsb : ∑ h' : Fin 5, b h' = ⊥ := by simp only [hb, Fin.sum_univ_five, EReal.bot_add]
    have hden : ∑ k' : Fin 25, a (tapRow k') * b (tapCol k') = ⊤ := by
      rw [sum_fin25 (fun h' h => a h' * b h)]
      simp only [ha, hb, bot_mul_bot', Fin.sum_univ_five, EReal.top_add_top]
    simp only [hsa, hsb, hden]
    simp only [ha, hb, div_bot_bot, bot_mul_bot', div_top_top, dense, ite_self, Finset.sum_const_zero, mul_zero]

/-! ## The whole arrays -/

theorem twoPass_eq_taps25 (x : SImg.Idx → EReal) (ix iy : STab.Idx → BitVec 32) (wx wy : STab.Idx → EReal)
    (hx : ∀ i, ∃ r : ℝ, x i = (r : EReal))
    (hix : ∀ i, (ix i).toNat < 512) (hiy : ∀ i, (iy i).toNat < 512)
    (hw : ((∀ i, ∃ r : ℝ, 0 < r ∧ wx i = (r : EReal)) ∧ (∀ i, ∃ r : ℝ, 0 < r ∧ wy i = (r : EReal)))
          ∨ ((∀ i, wx i = ⊥) ∧ (∀ i, wy i = ⊥))) :
    twoPass x (swapT ix) (swapT iy) (normT wx) (normT wy) = taps25 x ix iy wx wy := by
  funext i
  exact local_eq (fun p q => x (ix4 (i 0) (i 1) p q))
    (fun h => ix (ix3 (i 0) (i 2) h)) (fun h => iy (ix3 (i 0) (i 2) h))
    (fun h => wx (ix3 (i 0) (i 2) h)) (fun h => wy (ix3 (i 0) (i 2) h))
    (fun p q => hx _) (fun h => hix _) (fun h => hiy _)
    (hw.imp (fun h => ⟨fun t => h.1 _, fun t => h.2 _⟩) (fun h => ⟨fun t => h.1 _, fun t => h.2 _⟩))

end Cert.Stencil

end
-- ==== Proof.Weights.lean ====
/-
  The reference's raw Gaussian weights and its clamped tap numbers, read element by element.

  A raw weight is a sum of 18 addends  exp(−½·((u − v)/s)²) / (√(s·s)·c),  where u is a clipped rounded coordinate,
  v the coordinate itself, s the one width broadcast to every element, and c a positive literal. With real inputs,
  u and v are reals. If s ≠ 0 every addend is a positive real, and so is the sum. If s = 0 the quotient (u − v)/0 is an
  infinity, its square is ⊤, −½·⊤ = ⊥, exp ⊥ = 0, the divisor √0·c is 0, and 0/0 = ⊥: every addend is ⊥, and so is the sum.

  A tap number is the conversion to a machine integer of min 511 (max 0 y): whatever y is, that value is a real in
  [0, 511], so the integer is below 512.
-/
import proofs.«110536_j37890201485784_1_alg».proof.Proof.Gen.ReferenceIdeal.Read
import proofs.«110536_j37890201485784_1_alg».proof.Proof.Spec

noncomputable section

open Cert.ReferenceIdeal Cert.ReferenceIdeal.Read
open Idealize.ShloMosaic

namespace Cert.Stencil

/-! ### Extended reals that are reals: closure under the operations met here -/

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

theorem real_min {x y : EReal} (hx : ∃ r : ℝ, x = (r : EReal)) (hy : ∃ r : ℝ, y = (r : EReal)) :
    ∃ r : ℝ, min x y = (r : EReal) := by
  rcases le_total x y with h | h
  · rw [min_eq_left h]; exact hx
  · rw [min_eq_right h]; exact hy

theorem real_roundeven {x : EReal} (hx : ∃ r : ℝ, x = (r : EReal)) :
    ∃ r : ℝ, Ideal.liftRound Ideal.roundHalfEven x = (r : EReal) := by
  obtain ⟨a, rfl⟩ := hx; exact ⟨_, rfl⟩

/-! ### The three float literals -/

/-- The pattern 0x43FF8000 is 511. -/
theorem lit511 : Ideal.ofBits .f32 0x43FF8000#32 = ((511 : ℝ) : EReal) := by
  simp [Ideal.ofBits, Ideal.ieee, -EReal.coe_mul]; norm_num

/-- The pattern 0xBF000000 is −1/2. -/
theorem litNegHalf : Ideal.ofBits .f32 0xBF000000#32 = ((-(1 / 2) : ℝ) : EReal) := by
  simp [Ideal.ofBits, Ideal.ieee, -EReal.coe_mul, -EReal.coe_neg]; norm_num

/-- The pattern 0x40206C99 is the positive real 10513561 / 2²². -/
theorem litNorm : Ideal.ofBits .f32 0x40206C99#32 = ((10513561 / 4194304 : ℝ) : EReal) := by
  simp [Ideal.ofBits, Ideal.ieee, -EReal.coe_mul]; norm_num

/-! ### One addend -/

/-- At a width that is not zero an addend is a positive real. -/
theorem addend_pos (u v s c c' : ℝ) (hs : s ≠ 0) (hc' : 0 < c') :
    ∃ r : ℝ, 0 < r ∧
      Ideal.div (Ideal.exp ((c : EReal) * (Ideal.div ((u : EReal) - v) s * Ideal.div ((u : EReal) - v) s)))
        (Ideal.sqrt ((s : EReal) * s) * c') = (r : EReal) := by
  have hpos : 0 < Real.sqrt (s * s) * c' := mul_pos (Real.sqrt_pos.mpr (mul_self_pos.mpr hs)) hc'
  have hnn : ¬ s * s < 0 := not_lt.mpr (mul_self_nonneg s)
  rw [Ideal.div_coe hs]
  simp only [← EReal.coe_sub, ← EReal.coe_mul, Ideal.exp_coe, Ideal.sqrt_coe, if_neg hnn]
  rw [Ideal.div_coe hpos.ne', ← EReal.coe_mul]
  exact ⟨_, mul_pos (Real.exp_pos _) (one_div_pos.mpr hpos), rfl⟩

/-- At the width zero an addend is ⊥. -/
theorem addend_bot (u v c c' : ℝ) (hc : c < 0) :
    Ideal.div (Ideal.exp ((c : EReal) * (Ideal.div ((u : EReal) - v) ((0 : ℝ) : EReal) * Ideal.div ((u : EReal) - v) ((0 : ℝ) : EReal))))
        (Ideal.sqrt (((0 : ℝ) : EReal) * ((0 : ℝ) : EReal)) * c') = ⊥ := by
  have hsq : Ideal.div ((u : EReal) - v) ((0 : ℝ) : EReal) * Ideal.div ((u : EReal) - v) ((0 : ℝ) : EReal) = ⊤ := by
    unfold Ideal.div
    rw [if_pos EReal.coe_zero]
    split_ifs <;> rfl
  rw [hsq, EReal.coe_mul_top_of_neg hc, Ideal.exp_bot, ← EReal.coe_mul, mul_zero, Ideal.sqrt_coe, if_neg (lt_irrefl 0),
    Real.sqrt_zero, ← EReal.coe_mul, zero_mul]
  unfold Ideal.div
  rw [if_pos EReal.coe_zero, if_neg (lt_irrefl 0)]

/-! ### Sums of addends -/

theorem coe_sum_real {ι : Type} (s : Finset ι) (g : ι → ℝ) :
    ∑ k ∈ s, (g k : EReal) = ((∑ k ∈ s, g k : ℝ) : EReal) := by
  classical
  refine Finset.induction_on s (by simp) ?_
  intro a s ha ih
  rw [Finset.sum_insert ha, Finset.sum_insert ha, ih, EReal.coe_add]

/-- Zero plus a nonempty finite sum of positive reals is a positive real. -/
theorem sum_pos_real {ι : Type} [Fintype ι] [Nonempty ι] (f : ι → EReal)
    (h : ∀ k, ∃ r : ℝ, 0 < r ∧ f k = (r : EReal)) : ∃ r : ℝ, 0 < r ∧ (0 : EReal) + ∑ k, f k = (r : EReal) := by
  choose g hg using h
  refine ⟨∑ k, g k, Finset.sum_pos (fun k _ => (hg k).1) Finset.univ_nonempty, ?_⟩
  rw [zero_add, ← coe_sum_real]
  exact Finset.sum_congr rfl fun k _ => (hg k).2

/-- Zero plus a nonempty finite sum of ⊥ is ⊥. -/
theorem sum_bot {ι : Type} [Fintype ι] [Nonempty ι] (f : ι → EReal) (h : ∀ k, f k = ⊥) :
    (0 : EReal) + ∑ k, f k = ⊥ := by
  classical
  obtain ⟨k0⟩ := ‹Nonempty ι›
  rw [zero_add, ← Finset.add_sum_erase _ _ (Finset.mem_univ k0), h k0, EReal.bot_add]

/-! ### The coordinates and the clipped rounded coordinates are reals -/

theorem v3_real (x1 : (⟨S8x16384x2, .f32⟩ : BufTy).Contents (Elt Ideal)) (h1 : ∀ i, ∃ r : ℝ, x1 i = (r : EReal)) (i : S8x16384.Idx) :
    ∃ r : ℝ, val_main_v3 (F := Ideal) x1 i = (r : EReal) := by
  rw [val_main_v3_apply, val_main_v1_apply, val_main_v0_apply, val_main_v2_apply, val_main_cst_apply]
  exact real_mul (h1 _) ⟨_, lit511⟩

theorem v7_real (x1 : (⟨S8x16384x2, .f32⟩ : BufTy).Contents (Elt Ideal)) (h1 : ∀ i, ∃ r : ℝ, x1 i = (r : EReal)) (i : S8x16384.Idx) :
    ∃ r : ℝ, val_main_v7 (F := Ideal) x1 i = (r : EReal) := by
  rw [val_main_v7_apply, val_main_v5_apply, val_main_v4_apply, val_main_v6_apply, val_main_cst_0_apply]
  exact real_mul (h1 _) ⟨_, lit511⟩

theorem v15_real (x1 : (⟨S8x16384x2, .f32⟩ : BufTy).Contents (Elt Ideal)) (x3 : (⟨S90, .f32⟩ : BufTy).Contents (Elt Ideal)) (h1 : ∀ i, ∃ r : ℝ, x1 i = (r : EReal)) (h3 : ∀ i, ∃ r : ℝ, x3 i = (r : EReal)) (j : S8x16384x90.Idx) :
    ∃ r : ℝ, val_main_v15 (F := Ideal) x1 x3 j = (r : EReal) := by
  rw [val_main_v15_apply, val_main_call2_v4_apply, val_main_call2_v3_apply, val_main_call2_v2_apply,
    val_main_call2_v1_apply, val_main_call2_v0_apply, val_main_cst_1_apply, val_main_v14_apply, val_main_v12_apply,
    val_main_v10_apply, val_main_v8_apply, val_main_v13_apply, val_main_v11_apply]
  exact real_min ⟨_, rfl⟩ (real_max ⟨0, Ideal.ofBits_zero_f32⟩ (real_sub (real_roundeven (v3_real x1 h1 _)) (h3 _)))

theorem v21_real (x1 : (⟨S8x16384x2, .f32⟩ : BufTy).Contents (Elt Ideal)) (x3 : (⟨S90, .f32⟩ : BufTy).Contents (Elt Ideal)) (h1 : ∀ i, ∃ r : ℝ, x1 i = (r : EReal)) (h3 : ∀ i, ∃ r : ℝ, x3 i = (r : EReal)) (j : S8x16384x90.Idx) :
    ∃ r : ℝ, val_main_v21 (F := Ideal) x1 x3 j = (r : EReal) := by
  rw [val_main_v21_apply, val_main_call3_v4_apply, val_main_call3_v3_apply, val_main_call3_v2_apply,
    val_main_call3_v1_apply, val_main_call3_v0_apply, val_main_cst_2_apply, val_main_v20_apply, val_main_v18_apply,
    val_main_v16_apply, val_main_v9_apply, val_main_v19_apply, val_main_v17_apply]
  exact real_min ⟨_, rfl⟩ (real_max ⟨0, Ideal.ofBits_zero_f32⟩ (real_sub (real_roundeven (v7_real x1 h1 _)) (h3 _)))

theorem v23_real (x1 : (⟨S8x16384x2, .f32⟩ : BufTy).Contents (Elt Ideal)) (h1 : ∀ i, ∃ r : ℝ, x1 i = (r : EReal)) (j : S8x16384x90.Idx) :
    ∃ r : ℝ, val_main_v23 (F := Ideal) x1 j = (r : EReal) := by
  rw [val_main_v23_apply, val_main_v22_apply]; exact v3_real x1 h1 _

theorem v39_real (x1 : (⟨S8x16384x2, .f32⟩ : BufTy).Contents (Elt Ideal)) (h1 : ∀ i, ∃ r : ℝ, x1 i = (r : EReal)) (j : S8x16384x90.Idx) :
    ∃ r : ℝ, val_main_v39 (F := Ideal) x1 j = (r : EReal) := by
  rw [val_main_v39_apply, val_main_v38_apply]; exact v7_real x1 h1 _

/-! ### An addend of each family, in the scalars it is made of -/

theorem v35_eq (x1 : (⟨S8x16384x2, .f32⟩ : BufTy).Contents (Elt Ideal)) (x2 : (⟨S_, .f32⟩ : BufTy).Contents (Elt Ideal)) (x3 : (⟨S90, .f32⟩ : BufTy).Contents (Elt Ideal)) (j : S8x16384x90.Idx) :
    val_main_v35 (F := Ideal) x1 x2 x3 j
      = Ideal.div (Ideal.exp (Ideal.ofBits .f32 0xBF000000#32
            * (Ideal.div (val_main_v15 (F := Ideal) x1 x3 j - val_main_v23 (F := Ideal) x1 j) (x2 (fun a => a.elim0))
              * Ideal.div (val_main_v15 (F := Ideal) x1 x3 j - val_main_v23 (F := Ideal) x1 j) (x2 (fun a => a.elim0)))))
          (Ideal.sqrt (x2 (fun a => a.elim0) * x2 (fun a => a.elim0)) * Ideal.ofBits .f32 0x40206C99#32) := by
  rw [val_main_v35_apply, val_main_v30_apply, val_main_v29_apply, val_main_v28_apply, val_main_cst_4_apply,
    val_main_v27_apply, val_main_v26_apply, val_main_v24_apply, val_main_v25_apply, val_main_v34_apply,
    val_main_v33_apply, val_main_v32_apply, val_main_v31_apply, val_main_cst_5_apply]
  rfl

theorem v51_eq (x1 : (⟨S8x16384x2, .f32⟩ : BufTy).Contents (Elt Ideal)) (x2 : (⟨S_, .f32⟩ : BufTy).Contents (Elt Ideal)) (x3 : (⟨S90, .f32⟩ : BufTy).Contents (Elt Ideal)) (j : S8x16384x90.Idx) :
    val_main_v51 (F := Ideal) x1 x2 x3 j
      = Ideal.div (Ideal.exp (Ideal.ofBits .f32 0xBF000000#32
            * (Ideal.div (val_main_v21 (F := Ideal) x1 x3 j - val_main_v39 (F := Ideal) x1 j) (x2 (fun a => a.elim0))
              * Ideal.div (val_main_v21 (F := Ideal) x1 x3 j - val_main_v39 (F := Ideal) x1 j) (x2 (fun a => a.elim0)))))
          (Ideal.sqrt (x2 (fun a => a.elim0) * x2 (fun a => a.elim0)) * Ideal.ofBits .f32 0x40206C99#32) := by
  rw [val_main_v51_apply, val_main_v46_apply, val_main_v45_apply, val_main_v44_apply, val_main_cst_7_apply,
    val_main_v43_apply, val_main_v42_apply, val_main_v40_apply, val_main_v41_apply, val_main_v50_apply,
    val_main_v49_apply, val_main_v48_apply, val_main_v47_apply, val_main_cst_8_apply]
  rfl

/-! ### The two families of raw weights -/

theorem weights_cases (x1 : (⟨S8x16384x2, .f32⟩ : BufTy).Contents (Elt Ideal)) (x2 : (⟨S_, .f32⟩ : BufTy).Contents (Elt Ideal)) (x3 : (⟨S90, .f32⟩ : BufTy).Contents (Elt Ideal))
    (h1 : ∀ i, ∃ r : ℝ, x1 i = (r : EReal)) (h2 : ∀ i, ∃ r : ℝ, x2 i = (r : EReal)) (h3 : ∀ i, ∃ r : ℝ, x3 i = (r : EReal)) :
    ((∀ i, ∃ r : ℝ, 0 < r ∧ val_main_v37 (F := Ideal) x1 x2 x3 i = (r : EReal)) ∧ (∀ i, ∃ r : ℝ, 0 < r ∧ val_main_v53 (F := Ideal) x1 x2 x3 i = (r : EReal)))
    ∨ ((∀ i, val_main_v37 (F := Ideal) x1 x2 x3 i = ⊥) ∧ (∀ i, val_main_v53 (F := Ideal) x1 x2 x3 i = ⊥)) := by
  obtain ⟨s, hs⟩ := h2 (fun a => a.elim0)
  have hc : (-(1 / 2) : ℝ) < 0 := by norm_num
  have hc' : (0 : ℝ) < 10513561 / 4194304 := by norm_num
  by_cases hs0 : s = 0
  · subst hs0
    right
    refine ⟨fun i => ?_, fun i => ?_⟩
    · rw [val_main_v37_apply, val_main_cst_6_apply, Ideal.ofBits_def, Ideal.ofBits_zero_f32]
      refine sum_bot _ fun k => ?_
      rw [val_main_v36_apply, v35_eq, hs, litNegHalf, litNorm]
      obtain ⟨u, hu⟩ := v15_real x1 x3 h1 h3 (idx_main_v36 (idx_main_v37 i k))
      obtain ⟨v, hv⟩ := v23_real x1 h1 (idx_main_v36 (idx_main_v37 i k))
      rw [hu, hv]
      exact addend_bot u v _ _ hc
    · rw [val_main_v53_apply, val_main_cst_9_apply, Ideal.ofBits_def, Ideal.ofBits_zero_f32]
      refine sum_bot _ fun k => ?_
      rw [val_main_v52_apply, v51_eq, hs, litNegHalf, litNorm]
      obtain ⟨u, hu⟩ := v21_real x1 x3 h1 h3 (idx_main_v52 (idx_main_v53 i k))
      obtain ⟨v, hv⟩ := v39_real x1 h1 (idx_main_v52 (idx_main_v53 i k))
      rw [hu, hv]
      exact addend_bot u v _ _ hc
  · left
    refine ⟨fun i => ?_, fun i => ?_⟩
    · rw [val_main_v37_apply, val_main_cst_6_apply, Ideal.ofBits_def, Ideal.ofBits_zero_f32]
      refine sum_pos_real _ fun k => ?_
      rw [val_main_v36_apply, v35_eq, hs, litNegHalf, litNorm]
      obtain ⟨u, hu⟩ := v15_real x1 x3 h1 h3 (idx_main_v36 (idx_main_v37 i k))
      obtain ⟨v, hv⟩ := v23_real x1 h1 (idx_main_v36 (idx_main_v37 i k))
      rw [hu, hv]
      exact addend_pos u v s _ _ hs0 hc'
    · rw [val_main_v53_apply, val_main_cst_9_apply, Ideal.ofBits_def, Ideal.ofBits_zero_f32]
      refine sum_pos_real _ fun k => ?_
      rw [val_main_v52_apply, v51_eq, hs, litNegHalf, litNorm]
      obtain ⟨u, hu⟩ := v21_real x1 x3 h1 h3 (idx_main_v52 (idx_main_v53 i k))
      obtain ⟨v, hv⟩ := v39_real x1 h1 (idx_main_v52 (idx_main_v53 i k))
      rw [hu, hv]
      exact addend_pos u v s _ _ hs0 hc'

/-! ### The tap numbers -/

/-- Whatever y is, the machine integer of min 511 (max 0 y) is below 512. -/
theorem fptosi_clamp_lt (y : EReal) :
    (Ideal.fptosi 32 (min (((511#32 : BitVec 32).toInt : ℝ) : EReal) (max (((0#32 : BitVec 32).toInt : ℝ) : EReal) y))).toNat < 512 := by
  have e511 : (511#32 : BitVec 32).toInt = 511 := by decide
  have e0 : (0#32 : BitVec 32).toInt = 0 := by decide
  rw [e511, e0]
  have hlo : ((0 : ℝ) : EReal) ≤ min (((511 : ℤ) : ℝ) : EReal) (max (((0 : ℤ) : ℝ) : EReal) y) := by
    refine le_min ?_ ?_
    · exact EReal.coe_le_coe_iff.mpr (by norm_num)
    · exact le_trans (EReal.coe_le_coe_iff.mpr (by norm_num)) (le_max_left _ _)
  have hhi : min (((511 : ℤ) : ℝ) : EReal) (max (((0 : ℤ) : ℝ) : EReal) y) ≤ ((511 : ℝ) : EReal) :=
    le_trans (min_le_left _ _) (EReal.coe_le_coe_iff.mpr (by norm_num))
  generalize min (((511 : ℤ) : ℝ) : EReal) (max (((0 : ℤ) : ℝ) : EReal) y) = z at hlo hhi
  induction z using EReal.rec with
  | bot => exact absurd hlo (not_le.mpr (EReal.bot_lt_coe 0))
  | top => exact absurd hhi (not_le.mpr (EReal.coe_lt_top 511))
  | coe r =>
    have h0 : 0 ≤ r := EReal.coe_le_coe_iff.mp hlo
    have h1 : r ≤ 511 := EReal.coe_le_coe_iff.mp hhi
    have f0 : 0 ≤ ⌊r⌋ := Int.floor_nonneg.mpr h0
    have f1 : ⌊r⌋ ≤ 511 := by
      have : ⌊r⌋ ≤ ⌊(511 : ℝ)⌋ := Int.floor_le_floor h1
      simpa using this
    unfold Ideal.fptosi
    rw [Ideal.toIntClamped_coe, if_pos h0]
    have hm : max (-((2 ^ (32 - 1) : ℕ) : ℤ)) (min (((2 ^ (32 - 1) : ℕ) : ℤ) - 1) ⌊r⌋) = ⌊r⌋ := by
      rw [min_eq_right (by norm_num; omega), max_eq_right (by norm_num; omega)]
    rw [hm]
    obtain ⟨n, hn⟩ := Int.eq_ofNat_of_zero_le f0
    rw [hn] at f1 ⊢
    rw [BitVec.toNat_ofInt]
    omega

theorem rows_lt (x1 : (⟨S8x16384x2, .f32⟩ : BufTy).Contents (Elt Ideal)) (x4 : (⟨S5, .f32⟩ : BufTy).Contents (Elt Ideal)) (i : S8x16384x5.Idx) : (val_main_v71 (F := Ideal) x1 x4 i).toNat < 512 := by
  rw [val_main_v71_apply, val_main_v70_apply, val_main_call5_v4_apply, val_main_call5_v3_apply, val_main_c_12_apply,
    val_main_call5_v2_apply, val_main_call5_v1_apply, val_main_call5_v0_apply, val_main_c_11_apply]
  exact fptosi_clamp_lt _

theorem cols_lt (x1 : (⟨S8x16384x2, .f32⟩ : BufTy).Contents (Elt Ideal)) (x4 : (⟨S5, .f32⟩ : BufTy).Contents (Elt Ideal)) (i : S8x16384x5.Idx) : (val_main_v79 (F := Ideal) x1 x4 i).toNat < 512 := by
  rw [val_main_v79_apply, val_main_v78_apply, val_main_call7_v4_apply, val_main_call7_v3_apply, val_main_c_14_apply,
    val_main_call7_v2_apply, val_main_call7_v1_apply, val_main_call7_v0_apply, val_main_c_13_apply]
  exact fptosi_clamp_lt _

end Cert.Stencil

end
-- ==== Proof.Finite.lean ====
/-
  From the precondition to "every input entry is a real".

  The precondition is the conjunction, over the five arguments, of  all(|x| < +∞).  Each conjunct is a reduction by "and"
  that came out 1, so every compared element is 1; an extended real whose absolute value is strictly below ⊤ is neither ⊤
  nor ⊥, hence a real.
-/
import proofs.«110536_j37890201485784_1_alg».proof.Defs
import Idealize.ShloMosaic.Lib.ReduceAll

noncomputable section

namespace Cert.Stencil

open Idealize.ShloMosaic Idealize.SL.Sem

/-- An extended real whose absolute value compares below the pattern of +∞ is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => exfalso; revert h; simp [Ideal.cmp]
  | coe r => exact ⟨r, rfl⟩
  | top => exfalso; revert h; simp [Ideal.cmp]

instance subsingleton_scalar_idx : Subsingleton (Cert.Pre_finite_inputs.S_).Idx := ⟨fun a b => funext fun d => d.elim0⟩

theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal)) := by
  have hc := congrFun (h c) (fun a => a.elim0)
  dsimp only [Cert.Pre_finite_inputs.fn, Cert.Pre_finite_inputs.fn_part1, andi] at hc
  simp only [IntOp.andi_eq_one] at hc
  obtain ⟨⟨⟨⟨h0, h1⟩, h2⟩, h3⟩, h4⟩ := hc
  refine ⟨fun i => ?_, fun i => ?_, fun i => ?_, fun i => ?_, fun i => ?_⟩
  · exact real_of_abs_lt_inf _ (Host.reduce_andi_all _ _ _ _ _ h0 i)
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)
  · exact real_of_abs_lt_inf _ (Host.reduce_andi_all _ _ _ _ _ h4 i)

end Cert.Stencil

end
-- ==== Proof.RefRead.lean ====
/-
  The reference's result read at an index.

  The reference gathers, for batch b, channel c, query point n and tap (h, h'), the pixel of the flattened image
  [batch, channel, 512·512] at the 32-bit start index ix[b,n,h]·512 + iy[b,n,h'], weighs it by
  wx[b,n,h]·wy[b,n,h'] over the sum of all 25 such products, and sums over the 25 taps. With the row and column
  numbers below 512 the start index does not wrap, is not negative and is not clamped, and the flattened image at
  row·512 + column is the image at (row, column): the result is `taps25`.
-/
import proofs.«110536_j37890201485784_1_alg».proof.Proof.Gen.ReferenceIdeal.Read
import proofs.«110536_j37890201485784_1_alg».proof.Proof.Spec
import Idealize.ShloMosaic.Lib.ValueIdx

noncomputable section

namespace Cert.Stencil

open Cert.ReferenceIdeal Cert.ReferenceIdeal.Read Cert.ReferenceIdeal.Gen
open Idealize.ShloMosaic Idealize.ShloMosaic.ValueIdx Idealize.ShloMosaic.StableHlo

/-! ## The gather read at a result position -/

/-- The gather's dimension numbers, shortened. -/
local notation "gd" => gather_S8x16x262144_S8x409600x1_S8x16x409600_1_2_0_0_2_2_1161

/-- Result position (b, c, p) reads the flattened image at batch b, channel c and the start index found at (b, p, 0),
    read signed and clamped to the last position. -/
theorem gather_read {α : Type} (x : S8x16x262144.Idx → α) (idx : IVec S8x409600x1 32)
    (b : Fin 8) (c : Fin 16) (p : Fin 409600) :
    Host.gather gd x idx (ix3 b c p)
      = x (ix3 b c ⟨min (idx (ix3 b p (0 : Fin 1))).toInt.toNat 262143, by omega⟩) := by
  unfold Host.gather
  congr 1
  funext a
  refine Fin.ext ?_
  match a with
  | ⟨0, _⟩ =>
    show (gd).start (ix3 b c p) idx 0 + (gd).batchCoord (ix3 b c p) 0 + (gd).offCoord (ix3 b c p) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (gd).start (ix3 b c p) idx 1 + (gd).batchCoord (ix3 b c p) 1 + (gd).offCoord (ix3 b c p) 1 = c.val
    rw [GatherDims.batchCoord_eq_zero _ _ _ (by decide)]
    unfold GatherDims.start
    rw [dif_neg (by decide)]
    simp only [Nat.zero_add]
    rfl
  | ⟨2, _⟩ =>
    show (gd).start (ix3 b c p) idx 2 + (gd).batchCoord (ix3 b c p) 2 + (gd).offCoord (ix3 b c p) 2
      = min (idx (ix3 b p (0 : Fin 1))).toInt.toNat 262143
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (gd).startIndexMap from List.mem_singleton.mpr rfl)]
    have hsi : (gd).siIdx (ix3 b c p) ⟨List.idxOf (2 : Fin 3) (gd).startIndexMap,
        List.idxOf_lt_length_iff.2 (List.mem_singleton.mpr rfl)⟩ = ix3 b p (0 : Fin 1) := by
      funext e; refine Fin.ext ?_
      match e with
      | ⟨0, _⟩ => rfl
      | ⟨1, _⟩ => rfl
      | ⟨2, _⟩ => rfl
    rw [hsi]
    rfl

/-! ## The start index in 32-bit arithmetic -/

/-- With the row and the column number below 512 the start index row·512 + column does not wrap, is not negative
    (so the "negative index" branch keeps it) and is below the flattened image's last position (so it is not clamped). -/
theorem flat_start (u v : BitVec 32) (hu : u.toNat < 512) (hv : v.toNat < 512) :
    min (Scalar.select (IntOp.cmpi .slt (IntOp.addi (IntOp.muli u 512#32) v) 0#32)
          (IntOp.addi (IntOp.addi (IntOp.muli u 512#32) v) 262144#32)
          (IntOp.addi (IntOp.muli u 512#32) v)).toInt.toNat 262143
      = u.toNat * 512 + v.toNat := by
  have hf : (IntOp.addi (IntOp.muli u 512#32) v).toNat = u.toNat * 512 + v.toNat := by
    show (u * 512#32 + v).toNat = _
    rw [BitVec.toNat_add, BitVec.toNat_mul]
    show (u.toNat * 512 % 2 ^ 32 + v.toNat) % 2 ^ 32 = _
    omega
  have hi : (IntOp.addi (IntOp.muli u 512#32) v).toInt = ((u.toNat * 512 + v.toNat : Nat) : Int) := by
    rw [BitVec.toInt_eq_toNat_cond, hf]
    rw [if_pos (by omega)]
  have hc : IntOp.cmpi .slt (IntOp.addi (IntOp.muli u 512#32) v) 0#32 = 0#1 := by
    show BitVec.ofBool (BitVec.slt _ _) = 0#1
    have : BitVec.slt (IntOp.addi (IntOp.muli u 512#32) v) 0#32 = false := by
      rw [BitVec.slt, hi]
      simp
      omega
    rw [this]; rfl
  rw [hc, select_zero, hi, Int.toNat_natCast]
  omega

/-! ## The composed index maps at explicit coordinates -/

section Coordinates
variable (b : Fin 8) (c : Fin 16) (n : Fin 16384) (h h' : Fin 5) (k : Fin 25)

/-- Position n·25 + h·5 + h' among the 409600 gathered positions of a batch. -/
abbrev tapPos (n : Fin 16384) (h h' : Fin 5) : Fin 409600 :=
  ⟨n.val * 25 + h.val * 5 + h'.val, by have := n.isLt; have := h.isLt; have := h'.isLt; omega⟩

theorem idx_v100_v101 : idx_main_v100 (idx_main_v101 (ix3 b c n) k) = ix5 b c n (tapRow k) (tapCol k) := by
  have hb := b.isLt; have hc := c.isLt; have hn := n.isLt; have hk := k.isLt
  funext a; refine Fin.ext ?_
  match a with
  | ⟨0, _⟩ => show (((b.val * 16 + c.val) * 16384 + n.val) * 25 + k.val) / 6553600 = b.val; omega
  | ⟨1, _⟩ => show (((b.val * 16 + c.val) * 16384 + n.val) * 25 + k.val) / 409600 % 16 = c.val; omega
  | ⟨2, _⟩ => show (((b.val * 16 + c.val) * 16384 + n.val) * 25 + k.val) / 25 % 16384 = n.val; omega
  | ⟨3, _⟩ => show (((b.val * 16 + c.val) * 16384 + n.val) * 25 + k.val) / 5 % 5 = k.val / 5; omega
  | ⟨4, _⟩ => show (((b.val * 16 + c.val) * 16384 + n.val) * 25 + k.val) % 5 = k.val % 5; omega

theorem idx_v97_v98 : idx_main_v97 (idx_main_v98 (ix5 b c n h h')) = ix4 b n h h' := by
  funext a; refine Fin.ext ?_
  match a with
  | ⟨0, _⟩ => rfl
  | ⟨1, _⟩ => rfl
  | ⟨2, _⟩ => rfl
  | ⟨3, _⟩ => rfl

theorem idx_v54_v56 : idx_main_v54 (idx_main_v56 (ix4 b n h h')) = ix3 b n h := by
  funext a; refine Fin.ext ?_
  match a with
  | ⟨0, _⟩ => rfl
  | ⟨1, _⟩ => rfl
  | ⟨2, _⟩ => rfl

theorem idx_v55_v57 : idx_main_v55 (idx_main_v57 (ix4 b n h h')) = ix3 b n h' := by
  funext a; refine Fin.ext ?_
  match a with
  | ⟨0, _⟩ => rfl
  | ⟨1, _⟩ => rfl
  | ⟨2, _⟩ => rfl

theorem idx_v61_v62 : idx_main_v61 (idx_main_v62 (ix4 b n h h')) = ix2 b n := by
  funext a; refine Fin.ext ?_
  match a with
  | ⟨0, _⟩ => rfl
  | ⟨1, _⟩ => rfl

theorem idx_v59_v60 : idx_main_v59 (idx_main_v60 (ix2 b n) k) = ix4 b n (tapRow k) (tapCol k) := by
  have hb := b.isLt; have hn := n.isLt; have hk := k.isLt
  funext a; refine Fin.ext ?_
  match a with
  | ⟨0, _⟩ => show ((b.val * 16384 + n.val) * 25 + k.val) / 409600 = b.val; omega
  | ⟨1, _⟩ => show ((b.val * 16384 + n.val) * 25 + k.val) / 25 % 16384 = n.val; omega
  | ⟨2, _⟩ => show ((b.val * 16384 + n.val) * 25 + k.val) / 5 % 5 = k.val / 5; omega
  | ⟨3, _⟩ => show ((b.val * 16384 + n.val) * 25 + k.val) % 5 = k.val % 5; omega

theorem idx_v96 : idx_main_v96 (ix5 b c n h h') = ix3 b c (tapPos n h h') := by
  have hb := b.isLt; have hc := c.isLt; have hn := n.isLt; have hh := h.isLt; have hh' := h'.isLt
  funext a; refine Fin.ext ?_
  match a with
  | ⟨0, _⟩ => show ((((b.val * 16 + c.val) * 16384 + n.val) * 5 + h.val) * 5 + h'.val) / 6553600 = b.val; omega
  | ⟨1, _⟩ => show ((((b.val * 16 + c.val) * 16384 + n.val) * 5 + h.val) * 5 + h'.val) / 409600 % 16 = c.val; omega
  | ⟨2, _⟩ =>
    show ((((b.val * 16 + c.val) * 16384 + n.val) * 5 + h.val) * 5 + h'.val) % 409600 = n.val * 25 + h.val * 5 + h'.val
    omega

theorem idx_v94 (p : Fin 409600) : idx_main_v94 (ix3 b p (0 : Fin 1)) = ix2 b p := by
  funext a; refine Fin.ext ?_
  match a with
  | ⟨0, _⟩ => rfl
  | ⟨1, _⟩ => rfl

theorem idx_v87 : idx_main_v87 (ix2 b (tapPos n h h')) = ix4 b n h h' := by
  have hb := b.isLt; have hn := n.isLt; have hh := h.isLt; have hh' := h'.isLt
  funext a; refine Fin.ext ?_
  match a with
  | ⟨0, _⟩ => show (b.val * 409600 + (n.val * 25 + h.val * 5 + h'.val)) / 409600 = b.val; omega
  | ⟨1, _⟩ => show (b.val * 409600 + (n.val * 25 + h.val * 5 + h'.val)) / 25 % 16384 = n.val; omega
  | ⟨2, _⟩ => show (b.val * 409600 + (n.val * 25 + h.val * 5 + h'.val)) / 5 % 5 = h.val; omega
  | ⟨3, _⟩ => show (b.val * 409600 + (n.val * 25 + h.val * 5 + h'.val)) % 5 = h'.val; omega

theorem idx_v80_v84 : idx_main_v80 (idx_main_v84 (ix4 b n h h')) = ix3 b n h := by
  funext a; refine Fin.ext ?_
  match a with
  | ⟨0, _⟩ => rfl
  | ⟨1, _⟩ => rfl
  | ⟨2, _⟩ => rfl

theorem idx_v83_v85 : idx_main_v83 (idx_main_v85 (ix4 b n h h')) = ix3 b n h' := by
  funext a; refine Fin.ext ?_
  match a with
  | ⟨0, _⟩ => rfl
  | ⟨1, _⟩ => rfl
  | ⟨2, _⟩ => rfl

/-- The flattened image at row·512 + column is the image at (row, column). -/
theorem idx_v88 (u v : Fin 512) :
    idx_main_v88 (ix3 b c (⟨u.val * 512 + v.val, by have := u.isLt; have := v.isLt; omega⟩ : Fin 262144)) = ix4 b c u v := by
  have hb := b.isLt; have hc := c.isLt; have hu := u.isLt; have hv := v.isLt
  funext a; refine Fin.ext ?_
  match a with
  | ⟨0, _⟩ => show ((b.val * 16 + c.val) * 262144 + (u.val * 512 + v.val)) / 4194304 = b.val; omega
  | ⟨1, _⟩ => show ((b.val * 16 + c.val) * 262144 + (u.val * 512 + v.val)) / 262144 % 16 = c.val; omega
  | ⟨2, _⟩ => show ((b.val * 16 + c.val) * 262144 + (u.val * 512 + v.val)) / 512 % 512 = u.val; omega
  | ⟨3, _⟩ => show ((b.val * 16 + c.val) * 262144 + (u.val * 512 + v.val)) % 512 = v.val; omega

end Coordinates

/-! ## The reference's stages at explicit coordinates -/

section Stages
variable (x0 : (⟨S8x16x512x512, .f32⟩ : BufTy).Contents (Elt Ideal)) (x1 : (⟨S8x16384x2, .f32⟩ : BufTy).Contents (Elt Ideal))
  (x2 : (⟨S_, .f32⟩ : BufTy).Contents (Elt Ideal)) (x3 : (⟨S90, .f32⟩ : BufTy).Contents (Elt Ideal))
  (x4 : (⟨S5, .f32⟩ : BufTy).Contents (Elt Ideal))
variable (b : Fin 8) (c : Fin 16) (n : Fin 16384) (h h' : Fin 5)

/-- Tap (h, h')'s raw weight: the row weight times the column weight. -/
theorem v58_at : val_main_v58 (F := Ideal) x1 x2 x3 (ix4 b n h h')
    = val_main_v37 (F := Ideal) x1 x2 x3 (ix3 b n h) * val_main_v53 (F := Ideal) x1 x2 x3 (ix3 b n h') := by
  rw [val_main_v58_apply, val_main_v56_apply, val_main_v54_apply, val_main_v57_apply, val_main_v55_apply,
    idx_v54_v56, idx_v55_v57]
  rfl

/-- The sum of the 25 raw weights of a query point. -/
theorem v60_at : val_main_v60 (F := Ideal) x1 x2 x3 (ix2 b n)
    = ∑ k' : Fin 25, val_main_v37 (F := Ideal) x1 x2 x3 (ix3 b n (tapRow k'))
        * val_main_v53 (F := Ideal) x1 x2 x3 (ix3 b n (tapCol k')) := by
  rw [val_main_v60_apply, val_main_cst_10_apply, Ideal.ofBits_def, Ideal.ofBits_zero_f32, zero_add]
  refine Finset.sum_congr rfl fun k' _ => ?_
  rw [val_main_v59_apply, idx_v59_v60, v58_at]

/-- Tap (h, h')'s weight: its raw weight over the sum of the 25. -/
theorem v63_at : val_main_v63 (F := Ideal) x1 x2 x3 (ix4 b n h h')
    = Ideal.div (val_main_v37 (F := Ideal) x1 x2 x3 (ix3 b n h) * val_main_v53 (F := Ideal) x1 x2 x3 (ix3 b n h'))
        (∑ k' : Fin 25, val_main_v37 (F := Ideal) x1 x2 x3 (ix3 b n (tapRow k'))
          * val_main_v53 (F := Ideal) x1 x2 x3 (ix3 b n (tapCol k'))) := by
  rw [val_main_v63_apply, val_main_v62_apply, val_main_v61_apply, idx_v61_v62, v60_at, v58_at]
  rfl

/-- The start index of tap (h, h') before the sign test: row·512 + column in 32-bit arithmetic. -/
theorem v87_at : val_main_v87 (F := Ideal) x1 x4 (ix2 b (tapPos n h h'))
    = IntOp.addi (IntOp.muli (val_main_v71 (F := Ideal) x1 x4 (ix3 b n h)) 512#32)
        (val_main_v79 (F := Ideal) x1 x4 (ix3 b n h')) := by
  rw [val_main_v87_apply, idx_v87, val_main_v86_apply, val_main_v84_apply, val_main_v82_apply, val_main_v80_apply,
    idx_v80_v84, val_main_v81_apply, val_main_c_15_apply, val_main_v85_apply, val_main_v83_apply, idx_v83_v85]

/-- The position the gather reads for tap (h, h'): row·512 + column as a natural number. -/
theorem v94_at (hix : ∀ i, (val_main_v71 (F := Ideal) x1 x4 i).toNat < 512)
    (hiy : ∀ i, (val_main_v79 (F := Ideal) x1 x4 i).toNat < 512) :
    min (BitVec.toInt (val_main_v94 (F := Ideal) x1 x4 (ix3 b (tapPos n h h') (0 : Fin 1)))).toNat 262143
      = (val_main_v71 (F := Ideal) x1 x4 (ix3 b n h)).toNat * 512 + (val_main_v79 (F := Ideal) x1 x4 (ix3 b n h')).toNat := by
  rw [val_main_v94_apply, idx_v94, val_main_v93_apply, val_main_v90_apply, val_main_v92_apply, val_main_v89_apply,
    val_main_c_16_apply, val_main_v91_apply, val_main_c_17_apply, v87_at]
  exact flat_start _ _ (hix _) (hiy _)

/-- The gathered pixel of tap (h, h'): the image at its row and column. -/
theorem v96_at (hix : ∀ i, (val_main_v71 (F := Ideal) x1 x4 i).toNat < 512)
    (hiy : ∀ i, (val_main_v79 (F := Ideal) x1 x4 i).toNat < 512) :
    val_main_v96 (F := Ideal) x0 x1 x4 (ix5 b c n h h')
      = x0 (ix4 b c (pos (val_main_v71 (F := Ideal) x1 x4 (ix3 b n h))) (pos (val_main_v79 (F := Ideal) x1 x4 (ix3 b n h')))) := by
  rw [val_main_v96_apply, idx_v96]
  unfold val_main_v95
  rw [gather_read, val_main_v88_apply,
    ← idx_v88 b c (pos (val_main_v71 (F := Ideal) x1 x4 (ix3 b n h))) (pos (val_main_v79 (F := Ideal) x1 x4 (ix3 b n h')))]
  refine congrArg x0 (congrArg idx_main_v88 (congrArg (ix3 b c) (Fin.ext ?_)))
  show min (BitVec.toInt (val_main_v94 (F := Ideal) x1 x4 (ix3 b (tapPos n h h') (0 : Fin 1)))).toNat 262143
    = (val_main_v71 (F := Ideal) x1 x4 (ix3 b n h)).toNat % 512 * 512 + (val_main_v79 (F := Ideal) x1 x4 (ix3 b n h')).toNat % 512
  rw [v94_at x1 x4 b n h h' hix hiy, Nat.mod_eq_of_lt (hix _), Nat.mod_eq_of_lt (hiy _)]

end Stages

/-! ## The reference is the 25-tap pick -/

theorem reference_eq_taps25 (x0 : (⟨S8x16x512x512, .f32⟩ : BufTy).Contents (Elt Ideal))
    (x1 : (⟨S8x16384x2, .f32⟩ : BufTy).Contents (Elt Ideal)) (x2 : (⟨S_, .f32⟩ : BufTy).Contents (Elt Ideal))
    (x3 : (⟨S90, .f32⟩ : BufTy).Contents (Elt Ideal)) (x4 : (⟨S5, .f32⟩ : BufTy).Contents (Elt Ideal))
    (hix : ∀ i, (val_main_v71 (F := Ideal) x1 x4 i).toNat < 512) (hiy : ∀ i, (val_main_v79 (F := Ideal) x1 x4 i).toNat < 512) :
    val_main_v101 (F := Ideal) x0 x1 x2 x3 x4
      = taps25 x0 (val_main_v71 (F := Ideal) x1 x4) (val_main_v79 (F := Ideal) x1 x4)
          (val_main_v37 (F := Ideal) x1 x2 x3) (val_main_v53 (F := Ideal) x1 x2 x3) := by
  funext i
  obtain ⟨b, c, n, rfl⟩ : ∃ b c n, i = ix3 b c n := ⟨i 0, i 1, i 2, eq_ix3 i⟩
  rw [val_main_v101_apply, val_main_cst_18_apply, Ideal.ofBits_def, Ideal.ofBits_zero_f32, zero_add]
  unfold taps25
  refine Finset.sum_congr rfl fun k _ => ?_
  rw [val_main_v100_apply, idx_v100_v101, val_main_v99_apply, v96_at x0 x1 x4 b c n _ _ hix hiy, val_main_v98_apply,
    val_main_v97_apply, idx_v97_v98, v63_at]
  rfl

end Cert.Stencil

end
-- ==== Proof.KHost.lean ====
/-
  The arrays the kernel's region finds, as functions of the arguments.

  Before the region the host computes the raw row and column weights and the row and column numbers exactly as the
  reference does (the same operations, in the same order), then divides each point's five weights by their sum and
  lays all four tables out as [batch, tap, point]. So the region finds the numbers transposed (`swapT`) and the
  weights normalized and transposed (`normT`).
-/
import proofs.«110536_j37890201485784_1_alg».proof.Proof.Gen.KernelIdeal.Frame
import proofs.«110536_j37890201485784_1_alg».proof.Proof.Gen.ReferenceIdeal.Read
import proofs.«110536_j37890201485784_1_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.Stencil

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (c : Dev nD)

/-- The five arguments as the kernel program is launched with them. -/
abbrev kx : S8x16x512x512.Idx → EReal := m ((c : Thread nD τ).loc main_arg0)
abbrev kcoords : S8x16384x2.Idx → EReal := m ((c : Thread nD τ).loc main_arg1)
abbrev kwidth : S_.Idx → EReal := m ((c : Thread nD τ).loc main_arg2)
abbrev koffs : S90.Idx → EReal := m ((c : Thread nD τ).loc main_arg3)
abbrev ktaps : S5.Idx → EReal := m ((c : Thread nD τ).loc main_arg4)

/-- The raw weights and the numbers, by the reference's own stages. -/
abbrev rawWx : STab.Idx → EReal := Cert.ReferenceIdeal.Read.val_main_v37 (F := Ideal) (kcoords m c) (kwidth m c) (koffs m c)
abbrev rawWy : STab.Idx → EReal := Cert.ReferenceIdeal.Read.val_main_v53 (F := Ideal) (kcoords m c) (kwidth m c) (koffs m c)
abbrev rowNo : STab.Idx → BitVec 32 := Cert.ReferenceIdeal.Read.val_main_v71 (F := Ideal) (kcoords m c) (ktaps m c)
abbrev colNo : STab.Idx → BitVec 32 := Cert.ReferenceIdeal.Read.val_main_v79 (F := Ideal) (kcoords m c) (ktaps m c)

set_option maxHeartbeats 4000000 in
/-- The row numbers as the region finds them: the reference's, transposed. -/
theorem entry_rowNo : (V (F := Ideal) m c main_v80 : S8x5x16384.Idx → BitVec 32)
    = transpose S8x5x16384 [0, 2, 1] (rowNo m c) transposes_S8x16384x5_S8x5x16384_0_2_1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  rfl

set_option maxHeartbeats 4000000 in
/-- The column numbers as the region finds them: the reference's, transposed. -/
theorem entry_colNo : (V (F := Ideal) m c main_v81 : S8x5x16384.Idx → BitVec 32)
    = transpose S8x5x16384 [0, 2, 1] (colNo m c) transposes_S8x16384x5_S8x5x16384_0_2_1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  rfl

/-- A table of raw weights with each point's five divided by their sum (the sum taken from zero), as the host writes it. -/
abbrev normalized (w : FVec Ideal S8x16384x5 .f32) : FVec Ideal S8x16384x5 .f32 :=
  Host.divf (F := Ideal) (φ := .f32) w (broadcastInDim S8x16384x5 ![0, 1, 2] bcast_S8x16384x1_S8x16384x5_0_1_2
    (broadcastInDim S8x16384x1 ![0, 1] bcast_S8x16384_S8x16384x1_0_1
      (Host.reduceAdd (F := Ideal) (φ := .f32) w (constant S_ .f32 0x00000000#32) reducesTo_S8x16384x5_S8x16384_d2 h_S_)))

set_option maxHeartbeats 4000000 in
/-- The row weights as the region finds them: the reference's raw weights, normalized, transposed. -/
theorem entry_rowW : (V (F := Ideal) m c main_v78 : S8x5x16384.Idx → EReal)
    = transpose S8x5x16384 [0, 2, 1] (normalized (rawWx m c)) transposes_S8x16384x5_S8x5x16384_0_2_1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  rfl

set_option maxHeartbeats 4000000 in
/-- The column weights as the region finds them. -/
theorem entry_colW : (V (F := Ideal) m c main_v79 : S8x5x16384.Idx → EReal)
    = transpose S8x5x16384 [0, 2, 1] (normalized (rawWy m c)) transposes_S8x16384x5_S8x5x16384_0_2_1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  rfl

/-! ## The same, index by index -/

theorem transposed_eq_swapT {α : Type} (a : S8x16384x5.Idx → α) :
    transpose S8x5x16384 [0, 2, 1] a transposes_S8x16384x5_S8x5x16384_0_2_1 = swapT a := by
  funext j
  obtain ⟨b, h, n, rfl⟩ : ∃ (b : Fin 8) (h : Fin 5) (n : Fin 16384), j = ix3 b h n := ⟨j 0, j 1, j 2, eq_ix3 j⟩
  exact transpose_ix3_021_apply a _ b h n

/-- The host's quotient of two tables, at an index. -/
theorem quotient_apply (w X : FVec Ideal S8x16384x5 .f32) (i : S8x16384x5.Idx) :
    Host.divf (F := Ideal) w X i = Ideal.div (w i) (X i) := rfl

/-- Each point's sum of five, broadcast back over the taps, at (b, n, h). -/
theorem family_sum (w : FVec Ideal S8x16384x5 .f32) (b : Fin 8) (h : Fin 5) (n : Fin 16384) :
    (broadcastInDim S8x16384x5 ![0, 1, 2] bcast_S8x16384x1_S8x16384x5_0_1_2
      (broadcastInDim S8x16384x1 ![0, 1] bcast_S8x16384_S8x16384x1_0_1
        (Host.reduceAdd (F := Ideal) (φ := .f32) w (constant S_ .f32 0x00000000#32) reducesTo_S8x16384x5_S8x16384_d2 h_S_)))
      (ix3 b n h) = ∑ h' : Fin 5, w (ix3 b n h') := by
  rw [broadcastInDim_apply _ bcast_S8x16384x1_S8x16384x5_0_1_2 _ (ix3 b n h) (ix3 b n 0)
    (fun a => by match a with | ⟨0, _⟩ => rfl | ⟨1, _⟩ => rfl | ⟨2, _⟩ => rfl)]
  rw [broadcastInDim_apply _ bcast_S8x16384_S8x16384x1_0_1 _ (ix3 b n 0) (ix2 b n)
    (fun a => by match a with | ⟨0, _⟩ => rfl | ⟨1, _⟩ => rfl)]
  simp only [Host.reduceAdd, Ideal.hostReduceAdd_def]
  rw [Ideal.hostReduceAdd_single reducesTo_S8x16384x5_S8x16384_d2 (by decide)]
  show Ideal.ofBits .f32 0x00000000#32 + _ = _
  rw [Ideal.ofBits_zero_f32, zero_add]
  refine Finset.sum_congr rfl fun k _ => congrArg w (funext fun a => Fin.ext ?_)
  rw [Shape.Reduces.lift_val]
  unfold Shape.Reduces.liftVal
  match a with
  | ⟨0, _⟩ => simp
  | ⟨1, _⟩ => simp
  | ⟨2, _⟩ => simp

theorem normalized_apply (w : FVec Ideal S8x16384x5 .f32) (b : Fin 8) (h : Fin 5) (n : Fin 16384) :
    normalized w (ix3 b n h) = Ideal.div (w (ix3 b n h)) (∑ h' : Fin 5, w (ix3 b n h')) :=
  (quotient_apply w _ (ix3 b n h)).trans (congrArg (Ideal.div (w (ix3 b n h))) (family_sum w b h n))

theorem normT_apply (w : STab.Idx → EReal) (b : Fin 8) (h : Fin 5) (n : Fin 16384) :
    normT w (ix3 b h n) = Ideal.div (w (ix3 b n h)) (∑ h' : Fin 5, w (ix3 b n h')) := rfl

theorem normalized_transposed_eq_normT (w : FVec Ideal S8x16384x5 .f32) :
    transpose S8x5x16384 [0, 2, 1] (normalized w) transposes_S8x16384x5_S8x5x16384_0_2_1 = normT w := by
  funext j
  obtain ⟨b, h, n, rfl⟩ : ∃ (b : Fin 8) (h : Fin 5) (n : Fin 16384), j = ix3 b h n := ⟨j 0, j 1, j 2, eq_ix3 j⟩
  rw [transpose_ix3_021_apply]
  exact (normalized_apply w b h n).trans (normT_apply w b h n).symm

/-- What the region finds: the numbers transposed, the weights normalized and transposed. -/
theorem entry_tables :
    (V (F := Ideal) m c main_v80 : S8x5x16384.Idx → BitVec 32) = swapT (rowNo m c)
    ∧ (V (F := Ideal) m c main_v81 : S8x5x16384.Idx → BitVec 32) = swapT (colNo m c)
    ∧ (V (F := Ideal) m c main_v78 : S8x5x16384.Idx → EReal) = normT (rawWx m c)
    ∧ (V (F := Ideal) m c main_v79 : S8x5x16384.Idx → EReal) = normT (rawWy m c) :=
  ⟨(entry_rowNo m c).trans (transposed_eq_swapT _), (entry_colNo m c).trans (transposed_eq_swapT _),
    (entry_rowW m c).trans (normalized_transposed_eq_normT _), (entry_colW m c).trans (normalized_transposed_eq_normT _)⟩

end Cert.Stencil

end
-- ==== Proof.LibMatmul.lean ====
/-
  A plain matrix product read at an index, over the extended reals.

  The dimension numbers "contract the left operand's second axis with the right operand's first, no batch axes"
  (`DotDims.plain M K N`) make entry `(p, q)` of the product the sum over `k` of `l (p, k) * r (k, q)`: the
  contraction index has one coordinate, which is `k`; the left operand is read at row `p` of the result's index
  and column `k`, the right operand at row `k` and the result's column `q`. Stated once for every size, for the
  kernel's product into a zero accumulator and for the host's product alike, so that a block of rows of a product
  and the whole product are compared as sums over the same `Fin K`.
-/
import Idealize.ShloMosaic.PureOps.Ideal
import Idealize.ShloMosaic.PureOps.Ideal.Laws
import Idealize.ShloMosaic.Lib.ValueIdx

noncomputable section

namespace LibMatmul

open Idealize.ShloMosaic Idealize.ShloMosaic.ValueIdx

variable {M K N : Nat}

/-- The left operand's row is the result's row. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape is the sum over `k : Fin K` of the two operands at `(p, k)` and `(k, q)`. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The kernel's product into the zero accumulator, at entry `(p, q)`. -/
theorem matmul_zero_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum l r p q

/-- The host's product, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end LibMatmul

end
-- ==== Proof.Payload.lean ====
/-
  The kernel body's result at an index.

  The body spreads each family of five (number, weight) pairs over the 512 positions by comparing a row counter with
  the number and adding the selected weight, five times from zero; contracts the image block (its 16·512 rows by 512
  columns) with the dense column vector on the matrix unit; multiplies by the dense row vector and sums over the rows.
  Read at channel c and lane l this is Spec.lean's two-pass form over the blocks' entries.
-/
import proofs.«110536_j37890201485784_1_alg».proof.Proof.Gen.KernelIdeal.Frame
import proofs.«110536_j37890201485784_1_alg».proof.Proof.Spec
import proofs.«110536_j37890201485784_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

noncomputable section

namespace Cert.Stencil

open Idealize.ShloMosaic Idealize.ShloMosaic.ValueIdx Cert.KernelIdeal Cert.KernelIdeal.Gen

/-! ## Layout: a [1,1,128] row spread over 512 rows; a load of one tap's row -/

/-- A [1,1,128] vector flattened to 128 lanes, given a unit row axis and broadcast over 512 rows, reads its lane. -/
theorem spread_row {α : Type} (v : S1x1x128.Idx → α) (h1 : S1x1x128.ShapeCasts S128) (h2 : S128.ShapeCasts S1x128)
    (hb : S1x128.Broadcasts S512x128) (p : Fin 512) (l : Fin 128) :
    broadcastTo S512x128 (shapeCast S1x128 (shapeCast S128 v h1) h2) hb (ix2 p l) = v (ix3 0 0 l) := by
  rw [broadcastTo_apply _ hb (ix2 p l) (ix2 0 l) (fun a => by match a with | ⟨0, _⟩ => rfl | ⟨1, _⟩ => rfl)]
  rw [shapeCast_apply _ h2 (ix2 0 l) (ix1 l) (by rw [Shape.rowMajor_val_one, Shape.rowMajor_val_two]; show l.val = 0 * 128 + l.val; omega)]
  rw [shapeCast_apply _ h1 (ix1 l) (ix3 0 0 l) (by rw [Shape.rowMajor_val_three, Shape.rowMajor_val_one]; show (0 * 1 + 0) * 128 + l.val = l.val; omega)]

/-- The same when the 128 lanes are given first. -/
theorem spread_lanes {α : Type} (v : S128.Idx → α) (h2 : S128.ShapeCasts S1x128)
    (hb : S1x128.Broadcasts S512x128) (p : Fin 512) (l : Fin 128) :
    broadcastTo S512x128 (shapeCast S1x128 v h2) hb (ix2 p l) = v (ix1 l) := by
  rw [broadcastTo_apply _ hb (ix2 p l) (ix2 0 l) (fun a => by match a with | ⟨0, _⟩ => rfl | ⟨1, _⟩ => rfl)]
  rw [shapeCast_apply _ h2 (ix2 0 l) (ix1 l) (by rw [Shape.rowMajor_val_one, Shape.rowMajor_val_two]; show l.val = 0 * 128 + l.val; omega)]

theorem flat_lanes {α : Type} (v : S1x1x128.Idx → α) (h1 : S1x1x128.ShapeCasts S128) (l : Fin 128) :
    shapeCast S128 v h1 (ix1 l) = v (ix3 0 0 l) := by
  rw [shapeCast_apply _ h1 (ix1 l) (ix3 0 0 l) (by rw [Shape.rowMajor_val_three, Shape.rowMajor_val_one]; show (0 * 1 + 0) * 128 + l.val = l.val; omega)]

/-- The row counter at (p, l) is p. -/
theorem counter_apply (h : S512x128.Iotas .tc 32 [0]) (p : Fin 512) (l : Fin 128) :
    iota .tc S512x128 32 [0] h (ix2 p l) = BitVec.ofNat 32 p.val :=
  iota_single_apply .tc S512x128 32 0 h (ix2 p l)

/-- A load of tap h's row of a [1,5,128] block reads the block at (0, h, lane). -/
theorem ld_tap {e' : EltTy} (x : Vec Ideal S1x5x128 e') (off : Nat) (hoff : off < 5)
    (inb : ∀ a, (![0, off, 0] : Fin 3 → Nat) a + S1x1x128.size a ≤ S1x5x128.size a) (l : Fin 128) :
    View.ld (Val := Elt Ideal) x (Rect.unit (s := S1x5x128) ![0, off, 0] S1x1x128.size inb) (ix3 0 0 l) = x (ix3 0 ⟨off, hoff⟩ l) := by
  show x ((Rect.unit (s := S1x5x128) ![0, off, 0] S1x1x128.size inb).toLoadRect.idx (ix3 0 0 l)) = _
  refine congrArg x (funext fun a => Fin.ext ?_)
  rw [LoadRect.idx_apply]
  match a with
  | ⟨0, _⟩ => rfl
  | ⟨1, _⟩ => show off + 1 * 0 = off; omega
  | ⟨2, _⟩ => show 0 + 1 * l.val = l.val; omega

/-! ## One compare-and-add step -/

/-- The weight a tap gives position p: its weight if its number is p, else nothing. -/
def tapAt (p : Fin 512) (n : BitVec 32) (w : EReal) : EReal := if BitVec.ofNat 32 p.val = n then w else 0

theorem dense_eq_taps (idx : Fin 5 → BitVec 32) (w : Fin 5 → EReal) (j : Fin 512) :
    dense idx w j = tapAt j (idx 0) (w 0) + tapAt j (idx 1) (w 1) + tapAt j (idx 2) (w 2) + tapAt j (idx 3) (w 3) + tapAt j (idx 4) (w 4) := by
  unfold dense tapAt; rw [Fin.sum_univ_five]

/-- A select on an equality compare, at an index. -/
theorem select_eq_apply (cnt num : IVec S512x128 32) (w z : FVec Ideal S512x128 .f32) (i : S512x128.Idx) :
    select (cmpi .eq cnt num) w z i = if cnt i = num i then w i else z i := by
  show Scalar.select (IntOp.cmpi .eq (cnt i) (num i)) (w i) (z i) = _
  unfold Scalar.select IntOp.cmpi
  by_cases h : cnt i = num i
  · simp [h]
  · have hb : (cnt i == num i) = false := by simpa using h
    simp [h, hb]

theorem zero_splat_apply (i : S512x128.Idx) :
    (broadcast S512x128 (Scalar.ofBits (F := Ideal) .f32 0x00000000#32) : FVec Ideal S512x128 .f32) i = 0 := by
  show Ideal.ofBits .f32 0x00000000#32 = 0
  exact Ideal.ofBits_zero_f32

/-! ## The body's pure values at an index -/

section Payloads

variable (p : Fin 512) (l : Fin 128)

/-- The row counter: entry (p, l) is p. -/
abbrev rowCounter : IVec S512x128 32 := iota .tc S512x128 32 [0] iota_S512x128_d0_w32

theorem rowCounter_apply : rowCounter (ix2 p l) = BitVec.ofNat 32 p.val := counter_apply _ p l

theorem pay2_apply (v4 : Vec Ideal S1x1x128 .i32) (v6 : Vec Ideal S1x1x128 .f32) :
    k0_pay2 (F := Ideal) v4 v6 (ix2 p l) = tapAt p (v4 (ix3 0 0 l)) (v6 (ix3 0 0 l)) := by
  unfold k0_pay2
  simp only [addf_apply, select_eq_apply, zero_splat_apply, shapeCast_self, spread_row, zero_add, tapAt]
  rw [counter_apply]

theorem pay3_apply (v17 : Vec Ideal S1x1x128 .i32) (v19 : Vec Ideal S1x1x128 .f32) :
    k0_pay3 (F := Ideal) v17 v19 (ix2 p l) = tapAt p (v17 (ix3 0 0 l)) (v19 (ix3 0 0 l)) := by
  unfold k0_pay3
  simp only [addf_apply, select_eq_apply, zero_splat_apply, shapeCast_self, spread_row, zero_add, tapAt]
  rw [counter_apply]

theorem pay4_apply (v : Vec Ideal S1x1x128 .f32) : k0_pay4 (F := Ideal) v (ix1 l) = v (ix3 0 0 l) := by
  unfold k0_pay4; exact flat_lanes _ _ l
theorem pay8_apply (v : Vec Ideal S1x1x128 .f32) : k0_pay8 (F := Ideal) v (ix1 l) = v (ix3 0 0 l) := by
  unfold k0_pay8; exact flat_lanes _ _ l
theorem pay12_apply (v : Vec Ideal S1x1x128 .f32) : k0_pay12 (F := Ideal) v (ix1 l) = v (ix3 0 0 l) := by
  unfold k0_pay12; exact flat_lanes _ _ l

theorem pay5_apply (v : Vec Ideal S1x1x128 .i32) : k0_pay5 (F := Ideal) v (ix2 p l) = v (ix3 0 0 l) := by
  unfold k0_pay5; exact spread_row _ _ _ _ p l
theorem pay9_apply (v : Vec Ideal S1x1x128 .i32) : k0_pay9 (F := Ideal) v (ix2 p l) = v (ix3 0 0 l) := by
  unfold k0_pay9; exact spread_row _ _ _ _ p l
theorem pay13_apply (v : Vec Ideal S1x1x128 .i32) : k0_pay13 (F := Ideal) v (ix2 p l) = v (ix3 0 0 l) := by
  unfold k0_pay13; exact spread_row _ _ _ _ p l

theorem pay6_apply (v29 : FVec Ideal S512x128 .f32) (v43 : Vec Ideal S1x1x128 .i32) (v45 : Vec Ideal S1x1x128 .f32) :
    k0_pay6 (F := Ideal) rowCounter v29 v43 v45 (ix2 p l) = v29 (ix2 p l) + tapAt p (v43 (ix3 0 0 l)) (v45 (ix3 0 0 l)) := by
  unfold k0_pay6
  simp only [addf_apply, select_eq_apply, zero_splat_apply, shapeCast_self, spread_row, tapAt, rowCounter_apply]

theorem pay10_apply (v68 : FVec Ideal S512x128 .f32) (v82 : Vec Ideal S1x1x128 .i32) (v84 : Vec Ideal S1x1x128 .f32) :
    k0_pay10 (F := Ideal) rowCounter v68 v82 v84 (ix2 p l) = v68 (ix2 p l) + tapAt p (v82 (ix3 0 0 l)) (v84 (ix3 0 0 l)) := by
  unfold k0_pay10
  simp only [addf_apply, select_eq_apply, zero_splat_apply, shapeCast_self, spread_row, tapAt, rowCounter_apply]

theorem pay7_apply (v16 : FVec Ideal S512x128 .f32) (v33 : FVec Ideal S128 .f32) (v35 : IVec S512x128 32)
    (v56 : Vec Ideal S1x1x128 .i32) (v58 : Vec Ideal S1x1x128 .f32) :
    k0_pay7 (F := Ideal) rowCounter v16 v33 v35 v56 v58 (ix2 p l)
      = v16 (ix2 p l) + tapAt p (v35 (ix2 p l)) (v33 (ix1 l)) + tapAt p (v56 (ix3 0 0 l)) (v58 (ix3 0 0 l)) := by
  unfold k0_pay7
  simp only [addf_apply, select_eq_apply, zero_splat_apply, shapeCast_self, spread_row, spread_lanes, flat_lanes, tapAt, rowCounter_apply]

theorem pay11_apply (v55 : FVec Ideal S512x128 .f32) (v72 : FVec Ideal S128 .f32) (v74 : IVec S512x128 32)
    (v95 : Vec Ideal S1x1x128 .i32) (v97 : Vec Ideal S1x1x128 .f32) :
    k0_pay11 (F := Ideal) rowCounter v55 v72 v74 v95 v97 (ix2 p l)
      = v55 (ix2 p l) + tapAt p (v74 (ix2 p l)) (v72 (ix1 l)) + tapAt p (v95 (ix3 0 0 l)) (v97 (ix3 0 0 l)) := by
  unfold k0_pay11
  simp only [addf_apply, select_eq_apply, zero_splat_apply, shapeCast_self, spread_row, spread_lanes, flat_lanes, tapAt, rowCounter_apply]

end Payloads

/-! ## The last payload: the product with the dense column vector, weighed by the dense row vector, summed over rows -/

section Last

variable (c : Fin 16) (l : Fin 128)

/-- The stored [1,16,128] block at (0, c, l) is the [16,128] result at (c, l). -/
theorem out_cast_apply (v : FVec Ideal S16x128 .f32) (h : S16x128.ShapeCasts S1x16x128) :
    shapeCast S1x16x128 v h (ix3 0 c l) = v (ix2 c l) :=
  shapeCast_apply v h (ix3 0 c l) (ix2 c l)
    (by rw [Shape.rowMajor_val_two, Shape.rowMajor_val_three]; show c.val * 128 + l.val = (0 * 16 + c.val) * 128 + l.val; omega)

/-- The sum over the row axis of a [16,512,128] vector, at (c, l). -/
theorem rowsum_apply (v : FVec Ideal S16x512x128 .f32) (h : S16x512x128.Reduces [1] S16x128) (hφ : FKind.Formats .f32)
    (hacc : (0x00000000#32 : BitVec 32) = FKind.add.neutral .f32 hφ) :
    multiReduction .add [1] S16x128 v 0x00000000#32 h hφ hacc (ix2 c l) = ∑ p : Fin 512, v (ix3 c p l) := by
  refine (Ideal.multiReduction_add_single v 0x00000000#32 h hφ hacc (ix2 c l)).trans ?_
  refine Finset.sum_congr rfl fun p _ => congrArg v (funext fun a => Fin.ext ?_)
  rw [Shape.Reduces.lift_val]
  unfold Shape.Reduces.liftVal
  match a with
  | ⟨0, _⟩ => simp
  | ⟨1, _⟩ => simp
  | ⟨2, _⟩ => simp

/-- Row c·512 + p of the [8192,128] product is entry (c, p) of its [16,512,128] reading. -/
theorem tmp_apply (v : FVec Ideal S8192x128 .f32) (h : S8192x128.ShapeCasts S16x512x128) (p : Fin 512) :
    shapeCast S16x512x128 v h (ix3 c p l) = v (ix2 ⟨c.val * 512 + p.val, by have := c.isLt; have := p.isLt; omega⟩ l) :=
  shapeCast_apply v h (ix3 c p l) (ix2 ⟨c.val * 512 + p.val, by have := c.isLt; have := p.isLt; omega⟩ l)
    (by rw [Shape.rowMajor_val_two, Shape.rowMajor_val_three]; show (c.val * 512 + p.val) * 128 + l.val = (c.val * 512 + p.val) * 128 + l.val; rfl)

/-- The dense row vector given a unit channel axis and broadcast over the 16 channels. -/
theorem bcast_rows_apply (v : FVec Ideal S512x128 .f32) (h1 : S512x128.ShapeCasts S1x512x128) (h2 : S1x512x128.Broadcasts S16x512x128)
    (p : Fin 512) :
    broadcastTo S16x512x128 (shapeCast S1x512x128 v h1) h2 (ix3 c p l) = v (ix2 p l) := by
  rw [broadcastTo_apply _ h2 (ix3 c p l) (ix3 0 p l) (fun a => by match a with | ⟨0, _⟩ => rfl | ⟨1, _⟩ => rfl | ⟨2, _⟩ => rfl)]
  exact shapeCast_apply v h1 (ix3 0 p l) (ix2 p l)
    (by rw [Shape.rowMajor_val_two, Shape.rowMajor_val_three]; show p.val * 128 + l.val = (0 * 512 + p.val) * 128 + l.val; omega)

/-- The image block [1,16,512,512] read as 16·512 rows by 512 columns. -/
theorem img_apply (v : Vec Ideal S1x16x512x512 .f32) (h1 : S1x16x512x512.ShapeCasts S16x512x512) (h2 : S16x512x512.ShapeCasts S8192x512)
    (p q : Fin 512) :
    shapeCast S8192x512 (shapeCast S16x512x512 v h1) h2 (ix2 ⟨c.val * 512 + p.val, by have := c.isLt; have := p.isLt; omega⟩ q)
      = v (ix4 0 c p q) := by
  rw [shapeCast_apply _ h2 (ix2 ⟨c.val * 512 + p.val, by have := c.isLt; have := p.isLt; omega⟩ q) (ix3 c p q)
    (by rw [Shape.rowMajor_val_two, Shape.rowMajor_val_three]; show (c.val * 512 + p.val) * 512 + q.val = (c.val * 512 + p.val) * 512 + q.val; rfl)]
  exact shapeCast_apply v h1 (ix3 c p q) (ix4 0 c p q)
    (by rw [Shape.rowMajor_val_three, Shape.rowMajor_val_four]; show ((0 * 16 + c.val) * 512 + p.val) * 512 + q.val = (c.val * 512 + p.val) * 512 + q.val; omega)

/-- The body's product has the plain dimension numbers: rows by columns, no batch axes. -/
theorem dot_plain : dot_S8192x512_S512x128_S8192x128_1_0_0_1_n_n = DotDims.plain 8192 512 128 := rfl

/-- The product of the rows with a [512,128] matrix into the zero accumulator, at (r, l). -/
theorem product_apply (A : FVec Ideal S8192x512 .bf16) (B : FVec Ideal S512x128 .bf16) (r : Fin 8192) :
    matmul dot_S8192x512_S512x128_S8192x128_1_0_0_1_n_n none A B (constant S8192x128 .f32 0x00000000#32) (ix2 r l)
      = ∑ q : Fin 512, A (ix2 r q) * B (ix2 q l) := by
  rw [dot_plain]
  exact LibMatmul.matmul_zero_plain_apply none A B r l

end Last

/-- The last payload at (0, c, l): the two-pass form over the dense vectors as they stand before the last tap is added. -/
theorem pay1_apply (c : Fin 16) (l : Fin 128) (v94 v107 : FVec Ideal S512x128 .f32) (v111 : FVec Ideal S128 .f32) (v113 : IVec S512x128 32)
    (v121 : Vec Ideal S1x1x128 .i32) (v123 : Vec Ideal S1x1x128 .f32) (v134 : Vec Ideal S1x16x512x512 .f32) :
    k0_pay1 (F := Ideal) rowCounter rowCounter v94 v107 v111 v113 v121 v123 v134 (ix3 0 c l)
      = ∑ p : Fin 512, (∑ q : Fin 512, v134 (ix4 0 c p q) * (v94 (ix2 q l) + tapAt q (v113 (ix2 q l)) (v111 (ix1 l))))
          * (v107 (ix2 p l) + tapAt p (v121 (ix3 0 0 l)) (v123 (ix3 0 0 l))) := by
  unfold k0_pay1
  dsimp only
  refine (out_cast_apply c l _ _).trans ?_
  refine (rowsum_apply c l _ _ _ _).trans ?_
  refine Finset.sum_congr rfl fun p _ => ?_
  show shapeCast S16x512x128 _ _ (ix3 c p l) * broadcastTo S16x512x128 _ _ (ix3 c p l) = _
  rw [tmp_apply c l _ _ p, bcast_rows_apply c l _ _ _ p, product_apply l _ _ _]
  congr 1
  · refine Finset.sum_congr rfl fun q _ => ?_
    rw [truncf_apply, truncf_apply, img_apply c _ _ _ p q]
    simp only [addf_apply, select_eq_apply, zero_splat_apply, shapeCast_self, spread_lanes, rowCounter_apply, tapAt]
  · simp only [addf_apply, select_eq_apply, zero_splat_apply, shapeCast_self, spread_row, rowCounter_apply, tapAt]

/-! ## What the body leaves in the output block -/

theorem zeros3 : (![0, 0, 0] : Fin 3 → Nat) = fun _ => 0 := by funext a; fin_cases a <;> rfl
theorem zeros4 : (![0, 0, 0, 0] : Fin 4 → Nat) = fun _ => 0 := by funext a; fin_cases a <;> rfl

/-- The output block at (0, c, l), from the five input blocks: the two-pass form, the dense column vector built from the
    third and fifth blocks (column numbers and weights), the dense row vector from the second and fourth. -/
theorem out0_5_apply (x0 : Vec Ideal S1x16x512x512 .f32) (x1 x2 : Vec Ideal S1x5x128 .i32) (x3 x4 : Vec Ideal S1x5x128 .f32)
    (c : Fin 16) (l : Fin 128) :
    out0_5 (F := Ideal) x0 x1 x2 x3 x4 (ix3 0 c l)
      = ∑ p : Fin 512, (∑ q : Fin 512, x0 (ix4 0 c p q) * dense (fun h => x2 (ix3 0 h l)) (fun h => x4 (ix3 0 h l)) q)
          * dense (fun h => x1 (ix3 0 h l)) (fun h => x3 (ix3 0 h l)) p := by
  unfold out0_5
  rw [View.canon_unit_zero zeros3]
  refine (pay1_apply c l _ _ _ _ _ _ _).trans ?_
  refine Finset.sum_congr rfl fun p _ => ?_
  congr 1
  · refine Finset.sum_congr rfl fun q _ => ?_
    rw [View.ld_unit_zero (S := S1x16x512x512) zeros4]
    rw [pay10_apply q l, pay7_apply q l, pay2_apply q l, pay13_apply q l, pay12_apply l, pay5_apply q l, pay4_apply l,
      ld_tap x2 0 (by decide), ld_tap x2 1 (by decide), ld_tap x2 2 (by decide), ld_tap x2 3 (by decide), ld_tap x2 4 (by decide),
      ld_tap x4 0 (by decide), ld_tap x4 1 (by decide), ld_tap x4 2 (by decide), ld_tap x4 3 (by decide), ld_tap x4 4 (by decide), dense_eq_taps]
    rfl
  · rw [pay11_apply p l, pay6_apply p l, pay3_apply p l, pay9_apply p l, pay8_apply l,
      ld_tap x1 0 (by decide), ld_tap x1 1 (by decide), ld_tap x1 2 (by decide), ld_tap x1 3 (by decide), ld_tap x1 4 (by decide),
      ld_tap x3 0 (by decide), ld_tap x3 1 (by decide), ld_tap x3 2 (by decide), ld_tap x3 3 (by decide), ld_tap x3 4 (by decide), dense_eq_taps]
    rfl

end Cert.Stencil

end
-- ==== Proof.Blocks.lean ====
/-
  From the blocks to the array.

  Grid point t = (b, nt) of the 8 × 128 grid stages batch b of the image whole, and lanes nt·128 … nt·128+127 of batch b of
  each of the four tables and of the result. What the body leaves in the result's block is the two-pass form over
  the staged blocks (`out0_5_apply`), and each staged entry is the array's entry at the same batch, tap and point: so
  point t writes block t of `twoPass` of the arrays as the region finds them. The 1024 blocks tile the result.
-/
import proofs.«110536_j37890201485784_1_alg».proof.Proof.Gen.KernelIdeal.Value
import proofs.«110536_j37890201485784_1_alg».proof.Proof.Payload
import proofs.«110536_j37890201485784_1_alg».proof.Proof.Spec
import Idealize.ShloMosaic.Lib.Pipeline.Value
import Idealize.ShloMosaic.Lib.ValueIdx

set_option maxRecDepth 16384

noncomputable section

namespace Cert.Stencil

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ)

/-! ## Where each window's block sits at grid point t: batch t / 128, lane block t % 128 -/

theorem at_img : ∀ t : Fin cfg0.N, win0_0.index t (0 : Fin 4) = t.val / 128 ∧ win0_0.index t (1 : Fin 4) = 0
    ∧ win0_0.index t (2 : Fin 4) = 0 ∧ win0_0.index t (3 : Fin 4) = 0 :=
  (by decide +kernel : ∀ t : Fin grid0.N, _)
theorem at_rowNo : ∀ t : Fin cfg0.N, win0_1.index t (0 : Fin 3) = t.val / 128 ∧ win0_1.index t (1 : Fin 3) = 0
    ∧ win0_1.index t (2 : Fin 3) = t.val % 128 :=
  (by decide +kernel : ∀ t : Fin grid0.N, _)
theorem at_colNo : ∀ t : Fin cfg0.N, win0_2.index t (0 : Fin 3) = t.val / 128 ∧ win0_2.index t (1 : Fin 3) = 0
    ∧ win0_2.index t (2 : Fin 3) = t.val % 128 :=
  (by decide +kernel : ∀ t : Fin grid0.N, _)
theorem at_rowW : ∀ t : Fin cfg0.N, win0_3.index t (0 : Fin 3) = t.val / 128 ∧ win0_3.index t (1 : Fin 3) = 0
    ∧ win0_3.index t (2 : Fin 3) = t.val % 128 :=
  (by decide +kernel : ∀ t : Fin grid0.N, _)
theorem at_colW : ∀ t : Fin cfg0.N, win0_4.index t (0 : Fin 3) = t.val / 128 ∧ win0_4.index t (1 : Fin 3) = 0
    ∧ win0_4.index t (2 : Fin 3) = t.val % 128 :=
  (by decide +kernel : ∀ t : Fin grid0.N, _)
theorem at_out : ∀ t : Fin cfg0.N, win0_5.index t (0 : Fin 3) = t.val / 128 ∧ win0_5.index t (1 : Fin 3) = 0
    ∧ win0_5.index t (2 : Fin 3) = t.val % 128 :=
  (by decide +kernel : ∀ t : Fin grid0.N, _)

/-- An index of the result is in point t's block iff each coordinate is in the block's range on its axis. -/
theorem mem_out_blk (t : Fin cfg0.N) (i : S8x16x16384.Idx) :
    i ∈ ((cfg0.win 5).blk t).view.set ↔ ∀ a : Fin 3, win0_5.index t a * S1x16x128.size a ≤ (i a).val
      ∧ (i a).val < win0_5.index t a * S1x16x128.size a + S1x16x128.size a := by
  show i ∈ ((View.whole main_v82).slice (win0_5.rect t)).set ↔ _
  rw [View.set_slice_whole, Rect.mem_set_unit]
  exact Iff.rfl

/-! ## What point t writes back is block t of the two-pass form of the arrays the region finds -/

/-- The arrays the five input windows stage, as the region finds them. -/
abbrev arrImg (c : Dev nD) : S8x16x512x512.Idx → EReal := V (F := Ideal) m c (Pipeline.arrRef spec0 0)
abbrev arrRowNo (c : Dev nD) : S8x5x16384.Idx → BitVec 32 := V (F := Ideal) m c (Pipeline.arrRef spec0 1)
abbrev arrColNo (c : Dev nD) : S8x5x16384.Idx → BitVec 32 := V (F := Ideal) m c (Pipeline.arrRef spec0 2)
abbrev arrRowW (c : Dev nD) : S8x5x16384.Idx → EReal := V (F := Ideal) m c (Pipeline.arrRef spec0 3)
abbrev arrColW (c : Dev nD) : S8x5x16384.Idx → EReal := V (F := Ideal) m c (Pipeline.arrRef spec0 4)

set_option maxHeartbeats 2000000 in
theorem flushed_eq (c : Dev nD) (t : Fin cfg0.N) :
    (dats (F := Ideal) m 0 c).flushed 5 t = ((cfg0.win 5).blk t).view.read (Elt Ideal)
      (twoPass (arrImg m c) (arrRowNo m c) (arrColNo m c) (arrRowW m c) (arrColW m c)) := by
  rw [Cert.KernelIdeal.Value.flushed5]
  obtain ⟨a0, a1, a2, a3⟩ := at_img t
  obtain ⟨r0, r1, r2⟩ := at_rowNo t
  obtain ⟨s0, s1, s2⟩ := at_colNo t
  obtain ⟨u0, u1, u2⟩ := at_rowW t
  obtain ⟨v0, v1, v2⟩ := at_colW t
  obtain ⟨o0, o1, o2⟩ := at_out t
  funext j
  obtain ⟨z, c', l, rfl⟩ : ∃ (z : Fin 1) (c' : Fin 16) (l : Fin 128), j = ix3 z c' l := ⟨j 0, j 1, j 2, eq_ix3 j⟩
  obtain rfl : z = 0 := Subsingleton.elim _ _
  show out0_5 (iblk m c 0 t) (iblk m c 1 t) (iblk m c 2 t) (iblk m c 3 t) (iblk m c 4 t) (ix3 0 c' l)
    = twoPass _ _ _ _ _ (((cfg0.win 5).blk t).view.emb (ix3 0 c' l))
  refine (out0_5_apply (iblk m c 0 t) (iblk m c 1 t) (iblk m c 2 t) (iblk m c 3 t) (iblk m c 4 t) c' l).trans ?_
  have hi0 : ((((cfg0.win 5).blk t).view.emb (ix3 0 c' l)) 0).val = t.val / 128 := by
    show win0_5.index t (0 : Fin 3) * 1 + 1 * 0 = _; omega
  have hi1 : ((((cfg0.win 5).blk t).view.emb (ix3 0 c' l)) 1).val = c'.val := by
    show win0_5.index t (1 : Fin 3) * 16 + 1 * c'.val = _; omega
  have hi2 : ((((cfg0.win 5).blk t).view.emb (ix3 0 c' l)) 2).val = (t.val % 128) * 128 + l.val := by
    show win0_5.index t (2 : Fin 3) * 128 + 1 * l.val = _; omega
  generalize ((cfg0.win 5).blk t).view.emb (ix3 0 c' l) = i at hi0 hi1 hi2 ⊢
  unfold twoPass
  have himg : ∀ p q : Fin 512, iblk m c 0 t (ix4 0 c' p q) = arrImg m c (ix4 (i 0) (i 1) p q) := fun p q => by
    show V m c (Pipeline.arrRef spec0 0) (((cfg0.win 0).blk t).view.emb (ix4 0 c' p q)) = _
    refine congrArg _ (funext fun a => Fin.ext ?_)
    match a with
    | ⟨0, _⟩ => show win0_0.index t (0 : Fin 4) * 1 + 1 * 0 = (i 0).val; omega
    | ⟨1, _⟩ => show win0_0.index t (1 : Fin 4) * 16 + 1 * c'.val = (i 1).val; omega
    | ⟨2, _⟩ => show win0_0.index t (2 : Fin 4) * 512 + 1 * p.val = p.val; omega
    | ⟨3, _⟩ => show win0_0.index t (3 : Fin 4) * 512 + 1 * q.val = q.val; omega
  have hrow : ∀ h : Fin 5, iblk m c 1 t (ix3 0 h l) = arrRowNo m c (ix3 (i 0) h (i 2)) := fun h => by
    show V m c (Pipeline.arrRef spec0 1) (((cfg0.win 1).blk t).view.emb (ix3 0 h l)) = _
    refine congrArg _ (funext fun a => Fin.ext ?_)
    match a with
    | ⟨0, _⟩ => show win0_1.index t (0 : Fin 3) * 1 + 1 * 0 = (i 0).val; omega
    | ⟨1, _⟩ => show win0_1.index t (1 : Fin 3) * 5 + 1 * h.val = h.val; omega
    | ⟨2, _⟩ => show win0_1.index t (2 : Fin 3) * 128 + 1 * l.val = (i 2).val; omega
  have hcol : ∀ h : Fin 5, iblk m c 2 t (ix3 0 h l) = arrColNo m c (ix3 (i 0) h (i 2)) := fun h => by
    show V m c (Pipeline.arrRef spec0 2) (((cfg0.win 2).blk t).view.emb (ix3 0 h l)) = _
    refine congrArg _ (funext fun a => Fin.ext ?_)
    match a with
    | ⟨0, _⟩ => show win0_2.index t (0 : Fin 3) * 1 + 1 * 0 = (i 0).val; omega
    | ⟨1, _⟩ => show win0_2.index t (1 : Fin 3) * 5 + 1 * h.val = h.val; omega
    | ⟨2, _⟩ => show win0_2.index t (2 : Fin 3) * 128 + 1 * l.val = (i 2).val; omega
  have hrw : ∀ h : Fin 5, iblk m c 3 t (ix3 0 h l) = arrRowW m c (ix3 (i 0) h (i 2)) := fun h => by
    show V m c (Pipeline.arrRef spec0 3) (((cfg0.win 3).blk t).view.emb (ix3 0 h l)) = _
    refine congrArg _ (funext fun a => Fin.ext ?_)
    match a with
    | ⟨0, _⟩ => show win0_3.index t (0 : Fin 3) * 1 + 1 * 0 = (i 0).val; omega
    | ⟨1, _⟩ => show win0_3.index t (1 : Fin 3) * 5 + 1 * h.val = h.val; omega
    | ⟨2, _⟩ => show win0_3.index t (2 : Fin 3) * 128 + 1 * l.val = (i 2).val; omega
  have hcw : ∀ h : Fin 5, iblk m c 4 t (ix3 0 h l) = arrColW m c (ix3 (i 0) h (i 2)) := fun h => by
    show V m c (Pipeline.arrRef spec0 4) (((cfg0.win 4).blk t).view.emb (ix3 0 h l)) = _
    refine congrArg _ (funext fun a => Fin.ext ?_)
    match a with
    | ⟨0, _⟩ => show win0_4.index t (0 : Fin 3) * 1 + 1 * 0 = (i 0).val; omega
    | ⟨1, _⟩ => show win0_4.index t (1 : Fin 3) * 5 + 1 * h.val = h.val; omega
    | ⟨2, _⟩ => show win0_4.index t (2 : Fin 3) * 128 + 1 * l.val = (i 2).val; omega
  have hY : ∀ q : Fin 512, dense (fun h => iblk m c 2 t (ix3 0 h l)) (fun h => iblk m c 4 t (ix3 0 h l)) q
      = dense (fun h => arrColNo m c (ix3 (i 0) h (i 2))) (fun h => arrColW m c (ix3 (i 0) h (i 2))) q := fun q =>
    congrArg₂ (fun a b => dense a b q) (funext hcol) (funext hcw)
  have hX : ∀ p : Fin 512, dense (fun h => iblk m c 1 t (ix3 0 h l)) (fun h => iblk m c 3 t (ix3 0 h l)) p
      = dense (fun h => arrRowNo m c (ix3 (i 0) h (i 2))) (fun h => arrRowW m c (ix3 (i 0) h (i 2))) p := fun p =>
    congrArg₂ (fun a b => dense a b p) (funext hrow) (funext hrw)
  refine Finset.sum_congr rfl fun p _ => ?_
  refine congrArg₂ (fun a b : EReal => a * b) (Finset.sum_congr rfl fun q _ => ?_) (hX p)
  exact congrArg₂ (fun a b : EReal => a * b) (himg p q) (hY q)

/-! ## The blocks tile the result -/

theorem out_cover (i : S8x16x16384.Idx) :
    ∃ t : Fin cfg0.N, (cfg0.win 5).flush t = true ∧ i ∈ ((cfg0.win 5).blk t).view.set := by
  have h0 : (i 0).val < 8 := (i 0).isLt
  have h1 : (i 1).val < 16 := (i 1).isLt
  have h2 : (i 2).val < 16384 := (i 2).isLt
  have hN : (i 0).val * 128 + (i 2).val / 128 < cfg0.N := by show _ < 1024; omega
  refine ⟨⟨(i 0).val * 128 + (i 2).val / 128, hN⟩, flush0_5 _, ?_⟩
  rw [mem_out_blk]
  obtain ⟨o0, o1, o2⟩ := at_out ⟨(i 0).val * 128 + (i 2).val / 128, hN⟩
  simp only at o0 o1 o2
  intro a
  match a with
  | ⟨0, _⟩ =>
    show win0_5.index _ (0 : Fin 3) * 1 ≤ (i 0).val ∧ (i 0).val < win0_5.index _ (0 : Fin 3) * 1 + 1
    omega
  | ⟨1, _⟩ =>
    show win0_5.index _ (1 : Fin 3) * 16 ≤ (i 1).val ∧ (i 1).val < win0_5.index _ (1 : Fin 3) * 16 + 16
    omega
  | ⟨2, _⟩ =>
    show win0_5.index _ (2 : Fin 3) * 128 ≤ (i 2).val ∧ (i 2).val < win0_5.index _ (2 : Fin 3) * 128 + 128
    omega

/-- The result array after the run: the two-pass form of the arrays the region finds. -/
theorem final_out (c : Dev nD) :
    (dats (F := Ideal) m 0 c).arrAt 5 cfg0.N
      = twoPass (arrImg m c) (arrRowNo m c) (arrColNo m c) (arrRowW m c) (arrColW m c) :=
  (dats m 0 c).arrAt_eq_of_cover 5 _ (fun t _ => flushed_eq m c t) out_cover

end Cert.Stencil

end
-- ==== Proof.Claims.lean ====
/-
  The five claims.

  Frames: the two kernel programs' frames are generated whole; the reference's frame is its generated run with the
  result dropped. The idealization rewrote nothing, so `preserves` is trivial.

  Equivalence: after the kernel's run the result array is the two-pass form of the arrays its region finds (Blocks.lean),
  which are the reference's row and column numbers transposed and the reference's raw weights normalized per family and
  transposed (KHost.lean); the reference's run ends at the 25-tap weighted pick of the same numbers and raw weights
  (RefRead.lean). The pixels are real by the precondition, the numbers are clamped below 512, and the raw weights are all
  positive reals or (when the width is zero) all −∞ (Weights.lean): there the two forms agree (Algebra.lean).
-/
import proofs.«110536_j37890201485784_1_alg».proof.Defs
import proofs.«110536_j37890201485784_1_alg».proof.Proof.Gen.Kernel
import proofs.«110536_j37890201485784_1_alg».proof.Proof.Gen.Kernel.Frame
import proofs.«110536_j37890201485784_1_alg».proof.Proof.Gen.KernelIdeal
import proofs.«110536_j37890201485784_1_alg».proof.Proof.Gen.KernelIdeal.Frame
import proofs.«110536_j37890201485784_1_alg».proof.Proof.Gen.KernelIdeal.Value
import proofs.«110536_j37890201485784_1_alg».proof.Proof.Gen.ReferenceIdeal
import proofs.«110536_j37890201485784_1_alg».proof.Proof.Gen.ReferenceIdeal.Run
import proofs.«110536_j37890201485784_1_alg».proof.Proof.Gen.ReferenceIdeal.Read
import proofs.«110536_j37890201485784_1_alg».proof.Proof.Gen.Pre_finite_inputs
import proofs.«110536_j37890201485784_1_alg».proof.Proof.Spec
import proofs.«110536_j37890201485784_1_alg».proof.Proof.Algebra
import proofs.«110536_j37890201485784_1_alg».proof.Proof.Weights
import proofs.«110536_j37890201485784_1_alg».proof.Proof.Finite
import proofs.«110536_j37890201485784_1_alg».proof.Proof.RefRead
import proofs.«110536_j37890201485784_1_alg».proof.Proof.KHost
import proofs.«110536_j37890201485784_1_alg».proof.Proof.Blocks

set_option maxRecDepth 16384

noncomputable section

namespace Cert.Proof.Claims

open Idealize.ShloMosaic Idealize.ShloMosaic.TcCoe Idealize.SL.Sem Cert.Stencil

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array after its run is the 25-tap pick of the arguments' numbers and raw weights. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gen.dats (F := Ideal) m 0 c).arrAt 5 Cert.KernelIdeal.cfg0.N
      = taps25 (kx m c) (rowNo m c) (colNo m c) (rawWx m c) (rawWy m c) := by
  obtain ⟨e80, e81, e78, e79⟩ := entry_tables m c
  obtain ⟨f0, f1, f2, f3, f4⟩ := finite_of_pre m hpre c
  refine (final_out m c).trans ?_
  have e0 : arrImg m c = kx m c := Cert.KernelIdeal.Gen.V_main_arg0 m c
  have e1 : arrRowNo m c = swapT (rowNo m c) := e80
  have e2 : arrColNo m c = swapT (colNo m c) := e81
  have e3 : arrRowW m c = normT (rawWx m c) := e78
  have e4 : arrColW m c = normT (rawWy m c) := e79
  rw [e0, e1, e2, e3, e4]
  exact twoPass_eq_taps25 (kx m c) (rowNo m c) (colNo m c) (rawWx m c) (rawWy m c) f0
    (fun i => rows_lt _ _ i) (fun i => cols_lt _ _ i) (weights_cases _ _ _ f1 f2 f3)

theorem algebraic : Cert.algebraic_KernelIdeal_ReferenceIdeal := by
  intro m ρ m' ρ' hpre hagree
  refine ⟨fun c => taps25 (kx m c) (rowNo m c) (colNo m c) (rawWx m c) (rawWy m c), ?_, ?_⟩
  · exact (θ_run Cert.KernelIdeal.defs _ _).mono (fun r h c => ⟨(h c).1.trans (kernel_result m hpre c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v101_eq, (hagree c).1, (hagree c).2.1, (hagree c).2.2.1, (hagree c).2.2.2.1,
      (hagree c).2.2.2.2]
    exact reference_eq_taps25 _ _ _ _ _ (fun i => rows_lt _ _ i) (fun i => cols_lt _ _ i)

end Cert.Proof.Claims

end
-- ==== Proof.lean ====
/- The proof of `Cert.Claim`: the frames of the two kernel programs and of the reference, the (empty) idealization
   ledger, and the equivalence of the idealized kernel and the idealized reference over the extended reals. The kernel
   computes a separable 5×5 weighted pick of image pixels by two contractions with dense selection vectors and
   per-axis normalized weights; the reference gathers the 25 pixels and weighs them by the normalized outer product.
   Proof/Claims.lean proves the five claims over Proof/Spec.lean's two forms; here they are assembled behind the
   witnesses of the programs' stated facts. -/
import proofs.«110536_j37890201485784_1_alg».proof.Defs
import proofs.«110536_j37890201485784_1_alg».proof.Proof.Claims
import proofs.«110536_j37890201485784_1_alg».proof.Proof.Gen.Kernel
import proofs.«110536_j37890201485784_1_alg».proof.Proof.Gen.Kernel.Skeleton
import proofs.«110536_j37890201485784_1_alg».proof.Proof.Gen.Kernel.Launch
import proofs.«110536_j37890201485784_1_alg».proof.Proof.Gen.Kernel.Points
import proofs.«110536_j37890201485784_1_alg».proof.Proof.Gen.Kernel.Frame
import proofs.«110536_j37890201485784_1_alg».proof.Proof.Gen.KernelIdeal
import proofs.«110536_j37890201485784_1_alg».proof.Proof.Gen.KernelIdeal.Skeleton
import proofs.«110536_j37890201485784_1_alg».proof.Proof.Gen.KernelIdeal.Launch
import proofs.«110536_j37890201485784_1_alg».proof.Proof.Gen.KernelIdeal.Points
import proofs.«110536_j37890201485784_1_alg».proof.Proof.Gen.KernelIdeal.Frame
import proofs.«110536_j37890201485784_1_alg».proof.Proof.Gen.ReferenceIdeal
import proofs.«110536_j37890201485784_1_alg».proof.Proof.Gen.Pre_finite_inputs
import proofs.«110536_j37890201485784_1_alg».proof.Proof.Gen.KernelIdeal.Value
import proofs.«110536_j37890201485784_1_alg».proof.Proof.Gen.ReferenceIdeal.Run
import proofs.«110536_j37890201485784_1_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
